-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x32 : Shape := ⟨2, ![1600000, 32]⟩
abbrev S1x8 : Shape := ⟨2, ![1, 8]⟩
abbrev S100000 : Shape := ⟨1, ![100000]⟩
abbrev S64x64 : Shape := ⟨2, ![64, 64]⟩
abbrev S64 : Shape := ⟨1, ![64]⟩
abbrev S96x64 : Shape := ⟨2, ![96, 64]⟩
abbrev S64x32 : Shape := ⟨2, ![64, 32]⟩
abbrev S32 : Shape := ⟨1, ![32]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1x8 : S_.BroadcastsInDim S1x8 (![] : Fin 0 → Fin S1x8.rank)
  reducesTo_S1x8_S_d0_1 : S1x8.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S96x64 : S_.BroadcastsInDim S96x64 (![] : Fin 0 → Fin S96x64.rank)
  reducesTo_S96x64_S_d0_1 : S96x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : IVec S1x1600000 32 := (extractStridedSlice S1x1600000 ![1, 0] · slices_S2x1600000_S1x1600000_1_0) main_arg1
  let main_v55 : IVec S1600000 32 := shapeCast S1600000 main_v54 shapeCasts_S1x1600000_S1600000
  let main_c_20 : IVec S_ 32 := constantI S_ 32 4294867296#32
  let main_v56 : IVec S1600000 32 := broadcastInDim S1600000 ![] bcast_S_S1600000 main_c_20
  let main_v57 : IVec S1600000 1 := cmpi .sge main_v55 main_v56
  let main_c_21 : IVec S_ 1 := constantI S_ 1 1#1
  let main_v58 : IVec S_ 1 := (fun x v => Host.reduce IntOp.andi x v reducesTo_S1600000_S_d0 h_S_) main_v57 main_c_21
  let main_v59 : IVec S_ 1 := andi main_v53 main_v58
  let main_v60 : IVec S1x1600000 32 := (extractStridedSlice S1x1600000 ![1, 0] · slices_S2x1600000_S1x1600000_1_0) main_arg1
  let main_v61 : IVec S1600000 32 := shapeCast S1600000 main_v60 shapeCasts_S1x1600000_S1600000
  let main_c_22 : IVec S_ 32 := constantI S_ 32 100000#32
  let main_v62 : IVec S1600000 32 := broadcastInDim S1600000 ![] bcast_S_S1600000 main_c_22
  let main_v63 : IVec S1600000 1 := cmpi .slt main_v61 main_v62
  let main_c_23 : IVec S_ 1 := constantI S_ 1 1#1
  let main_v64 : IVec S_ 1 := (fun x v => Host.reduce IntOp.andi x v reducesTo_S1600000_S_d0 h_S_) main_v63 main_c_23
  let main_v65 : IVec S_ 1 := andi main_v59 main_v64
  main_v65

def fn_part2 {F : FTy → Type} [FloatOps F] (main_arg1 : IVec S2x1600000 32) (main_arg9 : FVec F S96x64 .f32) (main_arg10 : FVec F S64 .f32) (main_arg11 : FVec F S64x32 .f32) (main_arg12 : FVec F S32 .f32) (main_v33 : IVec S_ 1) : IVec S_ 1 :=
  let main_v34 : FVec F S96x64 .f32 := Host.absf main_arg9
  let main_cst_12 : FVec F S_ .f32 := constant S_ .f32 0x7F800000#32
  let main_v35 : FVec F S96x64 .f32 := broadcastInDim S96x64 ![] bcast_S_S96x64 main_cst_12
  let main_v36 : IVec S96x64 1 := cmpf .olt main_v34 main_v35
  let main_c_13 : IVec S_ 1 := constantI S_ 1 1#1
  let main_v37 : IVec S_ 1 := (fun x v => Host.reduce IntOp.andi x v reducesTo_S96x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_v48 main_v49 main_v50

def fn_part1 {F : FTy → Type} [FloatOps F] (main_arg1 : IVec S2x1600000 32) (main_arg6 : FVec F S64 .f32) (main_arg7 : FVec F S64x64 .f32) (main_arg8 : FVec F S64 .f32) (main_arg9 : FVec F S96x64 .f32) (main_arg10 : FVec F S64 .f32) (main_arg11 : FVec F S64x32 .f32) (main_arg12 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S100000x32 .f32) (main_arg1 : IVec S2x1600000 32) (main_arg2 : FVec F S1600000x32 .f32) (main_arg3 : FVec F S1x8 .f32) (main_arg4 : IVec S100000 32) (main_arg5 : FVec F S64x64 .f32) (main_arg6 : FVec F S64 .f32) (main_arg7 : FVec F S64x64 .f32) (main_arg8 : FVec F S64 .f32) (main_arg9 : FVec F S96x64 .f32) (main_arg10 : FVec F S64 .f32) (main_arg11 : FVec F S64x32 .f32) (main_arg12 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_v13 main_v16
-- ==== Kernel.lean ====
abbrev S100000x32 : Shape := ⟨2, ![100000, 32]⟩
abbrev S2x1600000 : Shape := ⟨2, ![2, 1600000]⟩
abbrev S1600000x32 : Shape := ⟨2, ![1600000, 32]⟩
abbrev S1x8 : Shape := ⟨2, ![1, 8]⟩
abbrev S100000 : Shape := ⟨1, ![100000]⟩
abbrev S64x64 : Shape := ⟨2, ![64, 64]⟩
abbrev S64 : Shape := ⟨1, ![64]⟩
abbrev S96x64 : Shape := ⟨2, ![96, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S32x64 : Shape := ⟨2, ![32, 64]⟩
abbrev S1x64 : Shape := ⟨2, ![1, 64]⟩
abbrev S1600000x64 : Shape := ⟨2, ![1600000, 64]⟩
abbrev S8000x32 : Shape := ⟨2, ![8000, 32]⟩
abbrev S8000x64 : Shape := ⟨2, ![8000, 64]⟩
abbrev S100000x64 : Shape := ⟨2, ![100000, 64]⟩
abbrev S100000x1 : Shape := ⟨2, ![100000, 1]⟩
abbrev S1x32 : Shape := ⟨2, ![1, 32]⟩
abbrev S5000x32 : Shape := ⟨2, ![5000, 32]⟩
abbrev S5000x64 : Shape := ⟨2, ![5000, 64]⟩

abbrev nBuf : Space → Nat
  | .hbm => 66
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S1x8, .f32⟩
  | .hbm, ⟨4, _⟩ => ⟨S100000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S96x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x32, .f32⟩
  | .hbm, ⟨36, _⟩ => ⟨S1600000x32, .i1⟩
  | .hbm, ⟨37, _⟩ => ⟨S_, .f32⟩
  | .hbm, ⟨38, _⟩ => ⟨S1600000x32, .f32⟩
  | .hbm, ⟨39, _⟩ => ⟨S1600000x32, .f32⟩
  | .hbm, ⟨40, _⟩ => ⟨S32x64, .f32⟩
  | .hbm, ⟨41, _⟩ => ⟨S32x64, .f32⟩
  | .hbm, ⟨42, _⟩ => ⟨S1x64, .f32⟩
  | .hbm, ⟨43, _⟩ => ⟨S1x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S32x64, .f32⟩
  | .hbm, ⟨62, _⟩ => ⟨S64x64, .f32⟩
  | .hbm, ⟨63, _⟩ => ⟨S1x64, .f32⟩
  | .hbm, ⟨64, _⟩ => ⟨S1x32, .f32⟩
  | .hbm, ⟨65, _⟩ => ⟨S100000x32, .f32⟩
  | .local _ .vmem, ⟨0, _⟩ => ⟨S8000x32, .f32⟩
  | .local _ .vmem, ⟨1, _⟩ => ⟨S8000x32, .f32⟩
  | .local _ .vmem, ⟨2, _⟩ => ⟨S8000x32, .f32⟩
  | .local _ .vmem, ⟨3, _⟩ => ⟨S8000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S8000x64, .f32⟩
  | .local _ .vmem, ⟨10, _⟩ => ⟨S8000x64, .f32⟩
  | .local _ .vmem, ⟨11, _⟩ => ⟨S5000x32, .f32⟩
  | .local _ .vmem, ⟨12, _⟩ => ⟨S5000x32, .f32⟩
  | .local _ .vmem, ⟨13, _⟩ => ⟨S5000x64, .f32⟩
  | .local _ .vmem, ⟨14, _⟩ => ⟨S5000x64, .f32⟩
  | .local _ .vmem, ⟨15, _⟩ => ⟨S32x64, .f32⟩
  | .local _ .vmem, ⟨16, _⟩ => ⟨S64x64, .f32⟩
  | .local _ .vmem, ⟨17, _⟩ => ⟨S1x64, .f32⟩
  | .local _ .vmem, ⟨18, _⟩ => ⟨S64x32, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_0 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_2 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  slices_S64x64_S32x64_0_0 : S64x64.Slices ![0, 0] S32x64
  slices_S64x64_S32x64_32_0 : S64x64.Slices ![32, 0] S32x64
  shapeCasts_S64_S1x64 : S64.ShapeCasts S1x64
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S96x64_S32x64_0_0 : S96x64.Slices ![0, 0] S32x64
  slices_S96x64_S64x64_32_0 : S96x64.Slices ![32, 0] S64x64
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x64_S64x64 : S64x64.ShapeCasts S64x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  gather_S100000x32_S1600000x1_S1600000x32_1_0_n_n_0_1_132_wf : GatherDims.WF S100000x32 S1600000x1 S1600000x32 [1] [0] [] [0] [] 1 ![1, 32]
  dot_S8000x32_S32x64_S8000x64_1_0_0_1_n_n_wf : DotDims.WF S8000x32 S32x64 S8000x64 [1] [0] [0] [1] [] []
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .f32 = 32 ∨ (Rect.block (s := S1600000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S1600000x64.size a
  hwx0_7 : ∀ i : grid0.Coords, EltTy.bits .f32 = 32 ∨ (Rect.block (s := S1600000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x32.size a ≤ S100000x32.size a
  hwx1_7 : ∀ i : grid1.Coords, EltTy.bits .f32 = 32 ∨ (Rect.block (s := S100000x32) S5000x32.size (cc1_transform_7 i) (hinb1_7 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v4) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S5000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x32 : Shape := ⟨2, ![1600000, 32]⟩
abbrev S1x8 : Shape := ⟨2, ![1, 8]⟩
abbrev S100000 : Shape := ⟨1, ![100000]⟩
abbrev S64x64 : Shape := ⟨2, ![64, 64]⟩
abbrev S64 : Shape := ⟨1, ![64]⟩
abbrev S96x64 : Shape := ⟨2, ![96, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x64 : Shape := ⟨2, ![100000, 64]⟩
abbrev S100000x1 : Shape := ⟨2, ![100000, 1]⟩
abbrev S100000x96 : Shape := ⟨2, ![100000, 96]⟩
abbrev S1x32 : Shape := ⟨2, ![1, 32]⟩

abbrev nBuf : Space → Nat
  | .hbm => 66
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S1x8, .f32⟩
  | .hbm, ⟨4, _⟩ => ⟨S100000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S96x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .f32⟩
  | .hbm, ⟨26, _⟩ => ⟨S1600000x64, .f32⟩
  | .hbm, ⟨27, _⟩ => ⟨S1600000x64, .f32⟩
  | .hbm, ⟨28, _⟩ => ⟨S1x64, .f32⟩
  | .hbm, ⟨29, _⟩ => ⟨S1600000x64, .f32⟩
  | .hbm, ⟨30, _⟩ => ⟨S1600000x64, .f32⟩
  | .hbm, ⟨31, _⟩ => ⟨S_, .f32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S_, .f32⟩
  | .hbm, ⟨43, _⟩ => ⟨S1600000, .f32⟩
  | .hbm, ⟨44, _⟩ => ⟨S_, .f32⟩
  | .hbm, ⟨45, _⟩ => ⟨S100000, .f32⟩
  | .hbm, ⟨46, _⟩ => ⟨S1600000x1, .i32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S100000x96, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x32_S100000x64_S100000x96_d1 : Shape.Concatenates [S100000x32, S100000x64] S100000x96 1
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x96_S96x64_S100000x64_1_0_0_1_n_n_wf : DotDims.WF S100000x96 S96x64 S100000x64 [1] [0] [0] [1] [] []
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x96_S96x64_S100000x64_1_0_0_1_n_n : DotDims S100000x96 S96x64 S100000x64 where
  lhsContracting := [1]
  rhsContracting := [0]
  lhsNonContracting := [0]
  rhsNonContracting := [1]
  lhsBatch := []
  rhsBatch := []
  wf := dot_S100000x96_S96x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.HostStretches.lean ====
/-
  The kernel program's host operations, stretch by stretch.

  Between the launches the program runs four stretches of host operations. Each is read here over an arbitrary contents
  `W` of the buffers it starts from: what it leaves in the buffers a region will read, as a named function of what `W`
  holds in its operands, and that it leaves every other buffer as it was.

  * the first stretch cuts the edge list into its row of destinations (`rowOf`) and its row of sources (`colOf`);
  * the second is the row gather with a fill: the source index wrapped once if negative (`wrapIdx`), the test
    0 ≤ w ≤ 99999 on the wrapped index (`inRange`), and row e of the result is row w(e) of the table where the test holds
    and the fill value elsewhere (`takeRows`);
  * the third cuts the first-layer matrix of the edge stage into its two halves and lays the two bias vectors out as rows;
  * the fourth is the mean of the incoming messages (`meanIncoming`: the messages summed into their destination rows,
    divided by the larger of the number of incoming edges and one), then the same cutting and laying out for the node stage.
-/
import proofs.«425195_j5695126634531_2_alg».proof.Proof.Gen.KernelIdeal.Frame
import proofs.«425195_j5695126634531_2_alg».proof.Proof.LibTRef
import Idealize.ShloMosaic.Lib.StableHlo.Run
import Idealize.ShloMosaic.PureOps.Ideal

set_option maxRecDepth 16384

noncomputable section

namespace Cert.KernelIdeal.HostStretches

open Cert.KernelIdeal Cert.KernelIdeal.Gen
open Idealize.ShloMosaic Idealize.ShloMosaic.TcCoe Idealize.ShloMosaic.StableHlo Idealize.SL.Sem

/-! ## The named functions -/

/-- The destinations: row 0 of the edge list. -/
def rowOf (x1 : IVec S2x1600000 32) : IVec S1600000 32 :=
  shapeCast S1600000 (extractStridedSlice S1x1600000 ![0, 0] x1 slices_S2x1600000_S1x1600000_0_0) shapeCasts_S1x1600000_S1600000

/-- The sources: row 1 of the edge list. -/
def colOf (x1 : IVec S2x1600000 32) : IVec S1600000 32 :=
  shapeCast S1600000 (extractStridedSlice S1x1600000 ![1, 0] x1 slices_S2x1600000_S1x1600000_1_0) shapeCasts_S1x1600000_S1600000

/-- A source index wrapped once: col + 100000 where col < 0, col elsewhere. -/
def wrapIdx (col : IVec S1600000 32) : IVec S1600000 32 :=
  select (cmpi .slt col (broadcastInDim S1600000 ![] bcast_S_S1600000 (constantI S_ 32 0#32)))
    (addi col (broadcastInDim S1600000 ![] bcast_S_S1600000 (constantI S_ 32 100000#32))) col

/-- The wrapped indices as a column of start indices. -/
def startCol (w : IVec S1600000 32) : IVec S1600000x1 32 :=
  broadcastInDim S1600000x1 ![0] bcast_S1600000_S1600000x1_0 w

/-- The test 0 ≤ w ≤ 99999, edge by edge. -/
def inRange (w : IVec S1600000 32) : IVec S1600000 1 :=
  Host.reduce IntOp.andi
    (andi (cmpi .sge (startCol w) (broadcastInDim S1600000x1 ![] bcast_S_S1600000x1 (constantI S_ 32 0#32)))
      (cmpi .sle (startCol w) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The row gather with a fill: row w(e) of the table where the test holds, the fill value elsewhere. -/
def takeRows (x : FVec Ideal S100000x32 .f32) (col : IVec S1600000 32) : FVec Ideal S1600000x32 .f32 :=
  select (broadcastInDim S1600000x32 ![0] bcast_S1600000_S1600000x32_0 (inRange (wrapIdx col)))
    (Host.gather gather_S100000x32_S1600000x1_S1600000x32_1_0_n_n_0_1_132 x (startCol (wrapIdx col)))
    (broadcastInDim S1600000x32 ![] bcast_S_S1600000x32 (constant (F := Ideal) S_ .f32 0x7FC00000#32))

/-- The mean of the incoming messages of every node. -/
def meanIncoming (msgs : FVec Ideal S1600000x64 .f32) (row : IVec S1600000 32) : FVec Ideal S100000x64 .f32 :=
  Host.divf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 row) msgs)
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 row)
            (broadcastInDim S1600000 ![] bcast_S_S1600000 (constant (F := Ideal) S_ .f32 0x3F800000#32)))
          (broadcastInDim S100000 ![] bcast_S_S100000 (constant (F := Ideal) S_ .f32 0x3F800000#32)))))

variable (W : Valuation τ sig (Elt Ideal))

/-! ## The first stretch: the edge list cut in two -/

theorem s0_row : StableHlo.after hostOps0 W (Proc.devRef .tc main_v1) = rowOf (W (Proc.devRef .tc main_arg1)) := by
  after_results; rfl
theorem s0_col : StableHlo.after hostOps0 W (Proc.devRef .tc main_v3) = colOf (W (Proc.devRef .tc main_arg1)) := by
  after_results; rfl
theorem s0_arg (b : Ref sig .tc) (hb : b ≠ main_v0 ∧ b ≠ main_v1 ∧ b ≠ main_v2 ∧ b ≠ main_v3) :
    StableHlo.after hostOps0 W (Proc.devRef .tc b) = W (Proc.devRef .tc b) :=
  StableHlo.after_of_forall_not_mem _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2⟩))

/-! ## The second stretch: the row gather with a fill -/

set_option maxHeartbeats 2000000 in
set_option maxRecDepth 131072 in
theorem s1_take :
    StableHlo.after hostOps0_1 W (Proc.devRef .tc main_v4)
      = takeRows (W (Proc.devRef .tc main_arg0)) (W (Proc.devRef .tc main_v3)) := by
  after_results_simp
  simp only [Cert.LibTRef.ofBuf_toBuf]
  -- the transports along a literal reference's type equation are identities: read each at a variable
  have hto : ∀ v : (⟨S1600000x32, .f32⟩ : BufTy).Contents (Elt Ideal),
      (TRef.of main_v4 : TRef sig ⟨S1600000x32, .f32⟩).toBuf v = v := fun _ => rfl
  have hof0 : ∀ v : (⟨S100000x32, .f32⟩ : BufTy).Contents (Elt Ideal),
      (TRef.of main_arg0 : TRef sig ⟨S100000x32, .f32⟩).ofBuf v = v := fun _ => rfl
  have hof3 : ∀ v : (⟨S1600000, .i32⟩ : BufTy).Contents (Elt Ideal),
      (TRef.of main_v3 : TRef sig ⟨S1600000, .i32⟩).ofBuf v = v := fun _ => rfl
  simp only [hto, hof0, hof3]
  rfl

theorem s1_arg (b : Ref sig .tc)
    (hb : ∀ w ∈ ([main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v4] : List (Ref sig .tc)), b ≠ w) :
    StableHlo.after hostOps0_1 W (Proc.devRef .tc b) = W (Proc.devRef .tc b) :=
  StableHlo.after_of_forall_not_mem _ _ (List.forall_iff_forall_mem.mp (by
    simp only [hostOps0_1, List.Forall, StableHlo.nullary_writes, StableHlo.unary_writes, StableHlo.binary_writes,
      StableHlo.ternary_writes, Finset.mem_singleton]
    repeat' apply And.intro
    all_goals exact StableHlo.devRef_ne_of_ne (hb _ (by simp))))

/-! ## The third stretch: the edge stage's parameters cut and laid out -/

theorem s2_wx : StableHlo.after hostOps0_2 W (Proc.devRef .tc main_v5)
    = extractStridedSlice S32x64 ![0, 0] (W (Proc.devRef .tc main_arg5)) slices_S64x64_S32x64_0_0 := by
  after_results
theorem s2_we : StableHlo.after hostOps0_2 W (Proc.devRef .tc main_v6)
    = extractStridedSlice S32x64 ![32, 0] (W (Proc.devRef .tc main_arg5)) slices_S64x64_S32x64_32_0 := by
  after_results
theorem s2_b1 : StableHlo.after hostOps0_2 W (Proc.devRef .tc main_v7)
    = shapeCast S1x64 (W (Proc.devRef .tc main_arg6)) shapeCasts_S64_S1x64 := by
  after_results; rfl
theorem s2_b2 : StableHlo.after hostOps0_2 W (Proc.devRef .tc main_v8)
    = shapeCast S1x64 (W (Proc.devRef .tc main_arg8)) shapeCasts_S64_S1x64 := by
  after_results; rfl
theorem s2_arg (b : Ref sig .tc) (hb : ∀ w ∈ ([main_v5, main_v6, main_v7, main_v8] : List (Ref sig .tc)), b ≠ w) :
    StableHlo.after hostOps0_2 W (Proc.devRef .tc b) = W (Proc.devRef .tc b) :=
  StableHlo.after_of_forall_not_mem _ _ (List.forall_iff_forall_mem.mp (by
    simp only [hostOps0_2, List.Forall, StableHlo.unary_writes, StableHlo.reshape_writes, Finset.mem_singleton]
    repeat' apply And.intro
    all_goals exact StableHlo.devRef_ne_of_ne (hb _ (by simp))))

/-! ## The fourth stretch: the mean of the incoming messages, and the node stage's parameters -/

theorem s3_mean : StableHlo.after hostOps1 W (Proc.devRef .tc main_v21)
    = meanIncoming (W (Proc.devRef .tc main_v9)) (W (Proc.devRef .tc main_v1)) := by
  after_results; rfl
theorem s3_wx : StableHlo.after hostOps1 W (Proc.devRef .tc main_v22)
    = extractStridedSlice S32x64 ![0, 0] (W (Proc.devRef .tc main_arg9)) slices_S96x64_S32x64_0_0 := by
  after_results
theorem s3_wa : StableHlo.after hostOps1 W (Proc.devRef .tc main_v23)
    = extractStridedSlice S64x64 ![32, 0] (W (Proc.devRef .tc main_arg9)) slices_S96x64_S64x64_32_0 := by
  after_results
theorem s3_b1 : StableHlo.after hostOps1 W (Proc.devRef .tc main_v24)
    = shapeCast S1x64 (W (Proc.devRef .tc main_arg10)) shapeCasts_S64_S1x64 := by
  after_results; rfl
theorem s3_b2 : StableHlo.after hostOps1 W (Proc.devRef .tc main_v25)
    = shapeCast S1x32 (W (Proc.devRef .tc main_arg12)) shapeCasts_S32_S1x32 := by
  after_results; rfl
theorem s3_arg (b : Ref sig .tc)
    (hb : ∀ w ∈ ([main_cst, main_v10, main_v11, main_v12, main_cst_0, main_v13, main_cst_1, main_v14, main_v15, main_v16,
      main_cst_2, main_v17, main_v18, main_v19, main_v20, main_v21, main_v22, main_v23, main_v24, main_v25] :
      List (Ref sig .tc)), b ≠ w) :
    StableHlo.after hostOps1 W (Proc.devRef .tc b) = W (Proc.devRef .tc b) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by simp))))

end Cert.KernelIdeal.HostStretches

end
-- ==== Proof.Spec.lean ====
/-
  One entry of a two-layer perceptron whose first layer reads two feature rows.

  With feature rows `a` (p numbers) and `b` (q numbers), first-layer weights `Wa` (p × h) and `Wb` (q × h), first-layer
  bias `ba` (h numbers), second-layer weights `W2` (h × o) and bias `b2` (o numbers), entry `j` of the result is

      ( Σ_k  max( Σ_c a c · Wa c k  +  Σ_c b c · Wb c k  +  ba k , 0 ) · W2 k j )  +  b2 j .

  Both stages of the message-passing layer are this function of one row: the edge stage at p = q = 32, h = o = 64 (the
  gathered source-node features and the edge features), the node stage at p = 32, q = h = 64, o = 32 (the node features
  and the mean of the incoming messages).

  The other way to write the first layer joins the two rows into one of p + q numbers and contracts it with one matrix of
  p + q rows. The two agree: a sum over `Fin (p + q)` is the sum over its first p indices plus the sum over its last q,
  and the joined row is `a` on the first and `b` on the last. Only the regrouping of a finite sum is used, which holds
  on the extended reals whatever the summands are; no finiteness is needed.
-/
import Idealize.ShloMosaic.PureOps.Ideal.Laws
import Idealize.ShloMosaic.Lib.ValueIdx
import Mathlib.Algebra.BigOperators.Fin

noncomputable section

open scoped BigOperators

namespace Cert.Mlp

/-- Entry `j` of the two-layer perceptron on the feature rows `a` and `b`. -/
def entry {p q h o : Nat} (a : Fin p → EReal) (b : Fin q → EReal) (Wa : Fin p → Fin h → EReal) (Wb : Fin q → Fin h → EReal)
    (ba : Fin h → EReal) (W2 : Fin h → Fin o → EReal) (b2 : Fin o → EReal) (j : Fin o) : EReal :=
  (∑ k : Fin h, max ((∑ c : Fin p, a c * Wa c k) + (∑ c : Fin q, b c * Wb c k) + ba k) 0 * W2 k j) + b2 j

/-- The first layer written over the joined row and one matrix `W` of p + q rows is the first layer over the two rows
    and the two halves of `W`. -/
theorem joined_contraction {p q : Nat} (a : Fin p → EReal) (b : Fin q → EReal) (W : Fin (p + q) → EReal) :
    (∑ c : Fin (p + q), Fin.append a b c * W c)
      = (∑ c : Fin p, a c * W (Fin.castAdd q c)) + (∑ c : Fin q, b c * W (Fin.natAdd p c)) := by
  rw [Fin.sum_univ_add]
  simp only [Fin.append_left, Fin.append_right]

/-- The perceptron written over the joined row is `entry` at the two halves of the first-layer matrix. -/
theorem entry_of_joined {p q h o : Nat} (a : Fin p → EReal) (b : Fin q → EReal) (W : Fin (p + q) → Fin h → EReal)
    (ba : Fin h → EReal) (W2 : Fin h → Fin o → EReal) (b2 : Fin o → EReal) (j : Fin o) :
    (∑ k : Fin h, max ((∑ c : Fin (p + q), Fin.append a b c * W c k) + ba k) 0 * W2 k j) + b2 j
      = entry a b (fun c k => W (Fin.castAdd q c) k) (fun c k => W (Fin.natAdd p c) k) ba W2 b2 j := by
  unfold entry
  refine congrArg (· + b2 j) (Finset.sum_congr rfl fun k _ => ?_)
  rw [joined_contraction a b (fun c => W c k)]

end Cert.Mlp

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.EdgeBody.lean ====
/-
  The edge kernel's block, one entry at a time.

  The body loads a block of 8000 gathered source-node rows and 8000 edge-feature rows (32 numbers each), the two
  32 × 64 halves of the first-layer matrix, the first-layer bias row, the 64 × 64 second-layer matrix and its bias row, and
  stores  max(xs · Wx + ea · We + b1, 0) · W2 + b2.  Over the extended reals a change of float format is the identity and a
  matrix product into a zero accumulator is the exact sum over the contracted coordinate, so entry (r, j) of the stored
  block is the two-layer perceptron's entry j on row r of the two feature blocks.
-/
import proofs.«425195_j5695126634531_2_alg».proof.Proof.Gen.KernelIdeal.Skeleton
import proofs.«425195_j5695126634531_2_alg».proof.Proof.Spec
import proofs.«425195_j5695126634531_2_alg».proof.Proof.LibPlainDot
import Idealize.ShloMosaic.Lib.Pipeline.Value
import Idealize.ShloMosaic.Lib.ValueIdx

noncomputable section

open scoped BigOperators

namespace Cert.KernelIdeal.EdgeBody

open Cert.KernelIdeal Cert.KernelIdeal.Gen Idealize.ShloMosaic Idealize.ShloMosaic.ValueIdx

/-- The first layer's two products are plain products of an 8000 × 32 by a 32 × 64 matrix. -/
theorem dims_first : dot_S8000x32_S32x64_S8000x64_1_0_0_1_n_n = DotDims.plain 8000 32 64 := rfl

/-- The second layer's product is a plain product of an 8000 × 64 by a 64 × 64 matrix. -/
theorem dims_second : dot_S8000x64_S64x64_S8000x64_1_0_0_1_n_n = DotDims.plain 8000 64 64 := rfl

/-- A bias row repeated down the 8000 rows reads, at (r, j), the row's entry j. -/
theorem bias_apply (b : FVec Ideal S1x64 .f32) (r : Fin 8000) (j : Fin 64) :
    broadcastTo S8000x64 b broadcasts_S1x64_S8000x64 (ix2 r j) = b (ix2 0 j) :=
  broadcastTo_apply b broadcasts_S1x64_S8000x64 (ix2 r j) (ix2 0 j) (fun a => match a with
    | ⟨0, _⟩ => rfl
    | ⟨1, _⟩ => rfl)

/-- Entry (r, j) of the stored block is the perceptron's entry j on row r of the two feature blocks. -/
theorem payload_apply (v0 v3 : Vec Ideal S8000x32 .f32) (v5 v8 : Vec Ideal S32x64 .f32) (v14 : Vec Ideal S1x64 .f32)
    (v21 : Vec Ideal S64x64 .f32) (v24 : Vec Ideal S1x64 .f32) (r : Fin 8000) (j : Fin 64) :
    k0_pay1 (F := Ideal) v0 v3 v5 v8 v14 v21 v24 (ix2 r j)
      = Cert.Mlp.entry (fun c => v0 (ix2 r c)) (fun c => v3 (ix2 r c)) (fun c k => v5 (ix2 c k)) (fun c k => v8 (ix2 c k))
          (fun k => v14 (ix2 0 k)) (fun k q => v21 (ix2 k q)) (fun q => v24 (ix2 0 q)) j := by
  unfold k0_pay1 Cert.Mlp.entry
  simp only [shapeCast_self, Idealize.ShloMosaic.matmul]
  rw [addf_apply, dims_second, Cert.LibPlainDot.matmul_plain_apply, bias_apply]
  refine congrArg (· + v24 (ix2 0 j)) (Finset.sum_congr rfl fun k _ => ?_)
  rw [truncf_apply, truncf_apply, maximumf_apply, addf_apply, addf_apply, dims_first,
    Cert.LibPlainDot.matmul_plain_apply, Cert.LibPlainDot.matmul_plain_apply, bias_apply, broadcast_apply]
  simp only [truncf_apply, Ideal.ofBits_def, Ideal.ofBits_zero_f32]

end Cert.KernelIdeal.EdgeBody

end
-- ==== Proof.EdgeRegion.lean ====
/-
  The edge region's result array.

  The 1,600,000 edges are cut into 200 blocks of 8000 rows. At grid point t the two feature windows and the result
  window hold rows 8000·t … 8000·t + 7999 of their arrays; the five parameter windows hold their whole arrays at every
  point. The body computes the perceptron row by row, so the block written back at point t is block t of ONE function of
  the arrays the region finds: row e of the messages is the perceptron on row e of the gathered source-node features and
  row e of the edge features. Every row lies in exactly the block e / 8000, so the 200 blocks cover the array and the array
  ends holding that function.
-/
import proofs.«425195_j5695126634531_2_alg».proof.Proof.Gen.KernelIdeal.Frame
import proofs.«425195_j5695126634531_2_alg».proof.Proof.EdgeBody
import Idealize.ShloMosaic.Lib.Pipeline.Value

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem
open Idealize.ShloMosaic.Pipeline (Dat)

/-- The messages: row e is the perceptron on row e of the gathered features `xs` and of the edge features `ea`. -/
def messages (xs ea : Vec Ideal S1600000x32 .f32) (wx we : Vec Ideal S32x64 .f32) (b1 : Vec Ideal S1x64 .f32)
    (w2 : Vec Ideal S64x64 .f32) (b2 : Vec Ideal S1x64 .f32) : Vec Ideal S1600000x64 .f32 :=
  fun i => Cert.Mlp.entry (fun c => xs (ix2 (i 0) c)) (fun c => ea (ix2 (i 0) c)) (fun c k => wx (ix2 c k))
    (fun c k => we (ix2 c k)) (fun k => b1 (ix2 0 k)) (fun k q => w2 (ix2 k q)) (fun q => b2 (ix2 0 q)) (i 1)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 200 points: the feature windows and the result window are at block row t, the
    parameter windows at the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row p of block t is row 8000·t + p of the array. -/
def row (t : Fin cfg0.N) (p : Fin 8000) : Fin 1600000 :=
  ⟨8000 * t.val + p.val, by have h : t.val < 200 := N_0 ▸ t.isLt; have := p.isLt; omega⟩

/-- The gathered-features window's block at point t, at (p, q), is the array's entry (8000·t + p, q). -/
theorem blk0_apply (c : Dev nD) (t : Fin cfg0.N) (p : Fin 8000) (q : Fin 32) :
    (iblk0 V c 0 t : Vec Ideal S8000x32 .f32) (ix2 p q) = (V c main_v4 : Vec Ideal S1600000x32 .f32) (ix2 (row t p) q) := by
  unfold iblk0
  rw [View.read_apply]
  show V c main_v4 _ = V c main_v4 _
  congr 1
  funext a
  apply Fin.ext
  match a with
  | ⟨0, _⟩ => show win0_0.index t 0 * 8000 + 1 * p.val = 8000 * t.val + p.val; rw [(idx_facts t).1.1]; omega
  | ⟨1, _⟩ => show win0_0.index t 1 * 32 + 1 * q.val = q.val; rw [(idx_facts t).1.2]; omega

/-- The edge-features window's block at point t, at (p, q), is the array's entry (8000·t + p, q). -/
theorem blk1_apply (c : Dev nD) (t : Fin cfg0.N) (p : Fin 8000) (q : Fin 32) :
    (iblk0 V c 1 t : Vec Ideal S8000x32 .f32) (ix2 p q) = (V c main_arg2 : Vec Ideal S1600000x32 .f32) (ix2 (row t p) q) := by
  unfold iblk0
  rw [View.read_apply]
  show V c main_arg2 _ = V c main_arg2 _
  congr 1
  funext a
  apply Fin.ext
  match a with
  | ⟨0, _⟩ => show win0_1.index t 0 * 8000 + 1 * p.val = 8000 * t.val + p.val; rw [(idx_facts t).2.1.1]; omega
  | ⟨1, _⟩ => show win0_1.index t 1 * 32 + 1 * q.val = q.val; rw [(idx_facts t).2.1.2]; omega

/-- A parameter window holds its whole array at every point: the first half of the first-layer matrix. -/
theorem blk2_apply (c : Dev nD) (t : Fin cfg0.N) (p : Fin 32) (q : Fin 64) :
    (iblk0 V c 2 t : Vec Ideal S32x64 .f32) (ix2 p q) = (V c main_v5 : Vec Ideal S32x64 .f32) (ix2 p q) := by
  unfold iblk0
  rw [View.read_apply]
  show V c main_v5 _ = V c main_v5 _
  congr 1
  funext a
  apply Fin.ext
  match a with
  | ⟨0, _⟩ => show win0_2.index t 0 * 32 + 1 * p.val = p.val; rw [(idx_facts t).2.2.1.1]; omega
  | ⟨1, _⟩ => show win0_2.index t 1 * 64 + 1 * q.val = q.val; rw [(idx_facts t).2.2.1.2]; omega

/-- The second half of the first-layer matrix. -/
theorem blk3_apply (c : Dev nD) (t : Fin cfg0.N) (p : Fin 32) (q : Fin 64) :
    (iblk0 V c 3 t : Vec Ideal S32x64 .f32) (ix2 p q) = (V c main_v6 : Vec Ideal S32x64 .f32) (ix2 p q) := by
  unfold iblk0
  rw [View.read_apply]
  show V c main_v6 _ = V c main_v6 _
  congr 1
  funext a
  apply Fin.ext
  match a with
  | ⟨0, _⟩ => show win0_3.index t 0 * 32 + 1 * p.val = p.val; rw [(idx_facts t).2.2.2.1.1]; omega
  | ⟨1, _⟩ => show win0_3.index t 1 * 64 + 1 * q.val = q.val; rw [(idx_facts t).2.2.2.1.2]; omega

/-- The first-layer bias row. -/
theorem blk4_apply (c : Dev nD) (t : Fin cfg0.N) (p : Fin 1) (q : Fin 64) :
    (iblk0 V c 4 t : Vec Ideal S1x64 .f32) (ix2 p q) = (V c main_v7 : Vec Ideal S1x64 .f32) (ix2 p q) := by
  unfold iblk0
  rw [View.read_apply]
  show V c main_v7 _ = V c main_v7 _
  congr 1
  funext a
  apply Fin.ext
  match a with
  | ⟨0, _⟩ => show win0_4.index t 0 * 1 + 1 * p.val = p.val; rw [(idx_facts t).2.2.2.2.1.1]; omega
  | ⟨1, _⟩ => show win0_4.index t 1 * 64 + 1 * q.val = q.val; rw [(idx_facts t).2.2.2.2.1.2]; omega

/-- The second-layer matrix. -/
theorem blk5_apply (c : Dev nD) (t : Fin cfg0.N) (p : Fin 64) (q : Fin 64) :
    (iblk0 V c 5 t : Vec Ideal S64x64 .f32) (ix2 p q) = (V c main_arg7 : Vec Ideal S64x64 .f32) (ix2 p q) := by
  unfold iblk0
  rw [View.read_apply]
  show V c main_arg7 _ = V c main_arg7 _
  congr 1
  funext a
  apply Fin.ext
  match a with
  | ⟨0, _⟩ => show win0_5.index t 0 * 64 + 1 * p.val = p.val; rw [(idx_facts t).2.2.2.2.2.1.1]; omega
  | ⟨1, _⟩ => show win0_5.index t 1 * 64 + 1 * q.val = q.val; rw [(idx_facts t).2.2.2.2.2.1.2]; omega

/-- The second-layer bias row. -/
theorem blk6_apply (c : Dev nD) (t : Fin cfg0.N) (p : Fin 1) (q : Fin 64) :
    (iblk0 V c 6 t : Vec Ideal S1x64 .f32) (ix2 p q) = (V c main_v8 : Vec Ideal S1x64 .f32) (ix2 p q) := by
  unfold iblk0
  rw [View.read_apply]
  show V c main_v8 _ = V c main_v8 _
  congr 1
  funext a
  apply Fin.ext
  match a with
  | ⟨0, _⟩ => show win0_6.index t 0 * 1 + 1 * p.val = p.val; rw [(idx_facts t).2.2.2.2.2.2.1.1]; omega
  | ⟨1, _⟩ => show win0_6.index t 1 * 64 + 1 * q.val = q.val; rw [(idx_facts t).2.2.2.2.2.2.1.2]; omega

/-- Entry (p, q) of the result window's block at point t sits at (8000·t + p, q) of the result array. -/
theorem out_emb (t : Fin cfg0.N) (p : Fin 8000) (q : Fin 64) :
    ((cfg0.win 7).blk t).view.emb (ix2 p q) = (ix2 (row t p) q : S1600000x64.Idx) := by
  funext a
  apply Fin.ext
  match a with
  | ⟨0, _⟩ => show win0_7.index t 0 * 8000 + 1 * p.val = 8000 * t.val + p.val; rw [(idx_facts t).2.2.2.2.2.2.2.1]; omega
  | ⟨1, _⟩ => show win0_7.index t 1 * 64 + 1 * q.val = q.val; rw [(idx_facts t).2.2.2.2.2.2.2.2]; omega

/-- What point t writes back is block t of the messages computed from the arrays the region finds. -/
theorem flushed_eq (c : Dev nD) (t : Fin cfg0.N) :
    (dat0 V c).flushed 7 t = ((cfg0.win 7).blk t).view.read (Elt Ideal)
      (messages (V c main_v4) (V c main_arg2) (V c main_v5) (V c main_v6) (V c main_v7) (V c main_arg7) (V c main_v8)) := by
  show (cfg0.win 7).cut (grid0.coords t) ((dat0 V c).after 7 t) = _
  rw [after0_7]
  unfold out0_7
  rw [View.canon_unit_zero hz]
  simp only [View.ld_unit_zero (S := S8000x32) hz, View.ld_unit_zero (S := S32x64) hz, View.ld_unit_zero (S := S1x64) hz,
    View.ld_unit_zero (S := S64x64) hz]
  funext y
  obtain ⟨p, q, rfl⟩ : ∃ (p : Fin 8000) (q : Fin 64), y = ix2 p q := ⟨y 0, y 1, eq_ix2 y⟩
  show k0_pay1 (F := Ideal) (iblk0 V c 0 t) (iblk0 V c 1 t) (iblk0 V c 2 t) (iblk0 V c 3 t) (iblk0 V c 4 t) (iblk0 V c 5 t)
      (iblk0 V c 6 t) (ix2 p q)
    = messages (V c main_v4) (V c main_arg2) (V c main_v5) (V c main_v6) (V c main_v7) (V c main_arg7) (V c main_v8)
        (((cfg0.win 7).blk t).view.emb (ix2 p q))
  rw [out_emb t p q]
  refine (EdgeBody.payload_apply (iblk0 V c 0 t) (iblk0 V c 1 t) (iblk0 V c 2 t) (iblk0 V c 3 t) (iblk0 V c 4 t)
    (iblk0 V c 5 t) (iblk0 V c 6 t) p q).trans ?_
  unfold messages
  simp only [blk0_apply, blk1_apply, blk2_apply, blk3_apply, blk4_apply, blk5_apply, blk6_apply]

/-- An index of the result array is in point t's block iff each coordinate is in the block's range on its axis. -/
theorem mem_blk (t : Fin cfg0.N) (i : S1600000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v9).slice (win0_7.rect t)).set ↔ _
  rw [View.set_slice_whole, Rect.mem_set_unit]
  exact Iff.rfl

/-- Row e lies in block e / 8000: the 200 blocks cover the result array. -/
theorem cover (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  have ht : (i 0).val / 8000 < cfg0.N := by show (i 0).val / 8000 < grid0.N; rw [N_0]; omega
  refine ⟨⟨(i 0).val / 8000, ht⟩, flush0_7 _, ?_⟩
  rw [mem_blk]
  have h7 := (idx_facts ⟨(i 0).val / 8000, ht⟩).2.2.2.2.2.2.2
  intro a
  match a with
  | ⟨0, _⟩ =>
    show win0_7.index ⟨(i 0).val / 8000, ht⟩ 0 * 8000 ≤ (i 0).val ∧ (i 0).val < win0_7.index ⟨(i 0).val / 8000, ht⟩ 0 * 8000 + 8000
    rw [h7.1]; show (i 0).val / 8000 * 8000 ≤ (i 0).val ∧ (i 0).val < (i 0).val / 8000 * 8000 + 8000; omega
  | ⟨1, _⟩ =>
    show win0_7.index ⟨(i 0).val / 8000, ht⟩ 1 * 64 ≤ (i 1).val ∧ (i 1).val < win0_7.index ⟨(i 0).val / 8000, ht⟩ 1 * 64 + 64
    rw [h7.2]; omega

/-- The result array after the region: the messages computed from the arrays the region finds. -/
theorem final (c : Dev nD) :
    (dat0 V c).arrAt 7 cfg0.N
      = messages (V c main_v4) (V c main_arg2) (V c main_v5) (V c main_v6) (V c main_v7) (V c main_arg7) (V c main_v8) :=
  (dat0 V c).arrAt_eq_of_cover 7 _ (fun t _ => flushed_eq V c t) cover

end Cert.KernelIdeal.EdgeRegion

end
-- ==== Proof.NodeBody.lean ====
/-
  The node kernel's block, one entry at a time.

  The body loads a block of 5000 node-feature rows (32 numbers) and 5000 rows of mean incoming messages (64 numbers), the
  32 × 64 and 64 × 64 parts of the first-layer matrix, the first-layer bias row, the 64 × 32 second-layer matrix and its
  bias row, and stores  max(x · Wx + agg · Wa + b1, 0) · W2 + b2.  Over the extended reals entry (r, j) of the stored block
  is the two-layer perceptron's entry j on row r of the two feature blocks.
-/
import proofs.«425195_j5695126634531_2_alg».proof.Proof.Gen.KernelIdeal.Skeleton
import proofs.«425195_j5695126634531_2_alg».proof.Proof.Spec
import proofs.«425195_j5695126634531_2_alg».proof.Proof.LibPlainDot
import Idealize.ShloMosaic.Lib.Pipeline.Value
import Idealize.ShloMosaic.Lib.ValueIdx

noncomputable section

open scoped BigOperators

namespace Cert.KernelIdeal.NodeBody

open Cert.KernelIdeal Cert.KernelIdeal.Gen Idealize.ShloMosaic Idealize.ShloMosaic.ValueIdx

/-- The node features' product is a plain product of a 5000 × 32 by a 32 × 64 matrix. -/
theorem dims_x : dot_S5000x32_S32x64_S5000x64_1_0_0_1_n_n = DotDims.plain 5000 32 64 := rfl

/-- The mean messages' product is a plain product of a 5000 × 64 by a 64 × 64 matrix. -/
theorem dims_agg : dot_S5000x64_S64x64_S5000x64_1_0_0_1_n_n = DotDims.plain 5000 64 64 := rfl

/-- The second layer's product is a plain product of a 5000 × 64 by a 64 × 32 matrix. -/
theorem dims_second : dot_S5000x64_S64x32_S5000x32_1_0_0_1_n_n = DotDims.plain 5000 64 32 := rfl

/-- The first-layer bias row repeated down the 5000 rows reads, at (r, k), the row's entry k. -/
theorem bias_first_apply (b : FVec Ideal S1x64 .f32) (r : Fin 5000) (k : Fin 64) :
    broadcastTo S5000x64 b broadcasts_S1x64_S5000x64 (ix2 r k) = b (ix2 0 k) :=
  broadcastTo_apply b broadcasts_S1x64_S5000x64 (ix2 r k) (ix2 0 k) (fun a => match a with
    | ⟨0, _⟩ => rfl
    | ⟨1, _⟩ => rfl)

/-- The second-layer bias row repeated down the 5000 rows reads, at (r, j), the row's entry j. -/
theorem bias_second_apply (b : FVec Ideal S1x32 .f32) (r : Fin 5000) (j : Fin 32) :
    broadcastTo S5000x32 b broadcasts_S1x32_S5000x32 (ix2 r j) = b (ix2 0 j) :=
  broadcastTo_apply b broadcasts_S1x32_S5000x32 (ix2 r j) (ix2 0 j) (fun a => match a with
    | ⟨0, _⟩ => rfl
    | ⟨1, _⟩ => rfl)

/-- Entry (r, j) of the stored block is the perceptron's entry j on row r of the two feature blocks. -/
theorem payload_apply (v0 : Vec Ideal S5000x32 .f32) (v2 : Vec Ideal S5000x64 .f32) (v5 : Vec Ideal S32x64 .f32)
    (v8 : Vec Ideal S64x64 .f32) (v14 : Vec Ideal S1x64 .f32) (v21 : Vec Ideal S64x32 .f32) (v24 : Vec Ideal S1x32 .f32)
    (r : Fin 5000) (j : Fin 32) :
    k1_pay1 (F := Ideal) v0 v2 v5 v8 v14 v21 v24 (ix2 r j)
      = Cert.Mlp.entry (fun c => v0 (ix2 r c)) (fun c => v2 (ix2 r c)) (fun c k => v5 (ix2 c k)) (fun c k => v8 (ix2 c k))
          (fun k => v14 (ix2 0 k)) (fun k q => v21 (ix2 k q)) (fun q => v24 (ix2 0 q)) j := by
  unfold k1_pay1 Cert.Mlp.entry
  simp only [shapeCast_self, Idealize.ShloMosaic.matmul]
  rw [addf_apply, dims_second, Cert.LibPlainDot.matmul_plain_apply, bias_second_apply]
  refine congrArg (· + v24 (ix2 0 j)) (Finset.sum_congr rfl fun k _ => ?_)
  rw [truncf_apply, truncf_apply, maximumf_apply, addf_apply, addf_apply, dims_x, dims_agg,
    Cert.LibPlainDot.matmul_plain_apply, Cert.LibPlainDot.matmul_plain_apply, bias_first_apply, broadcast_apply]
  simp only [truncf_apply, Ideal.ofBits_def, Ideal.ofBits_zero_f32]

end Cert.KernelIdeal.NodeBody

end
-- ==== Proof.NodeRegion.lean ====
/-
  The node region's result array.

  The 100,000 nodes are cut into 20 blocks of 5000 rows. At grid point t the node-feature window, the mean-message
  window and the result window hold rows 5000·t … 5000·t + 4999 of their arrays; the five parameter windows hold their
  whole arrays at every point. The body computes the perceptron row by row, so the block written back at point t is block
  t of ONE function of the arrays the region finds: row n of the result is the perceptron on row n of the node features
  and row n of the mean incoming messages. Every row lies in exactly the block n / 5000, so the 20 blocks cover the array
  and the array ends holding that function.
-/
import proofs.«425195_j5695126634531_2_alg».proof.Proof.Gen.KernelIdeal.Frame
import proofs.«425195_j5695126634531_2_alg».proof.Proof.NodeBody
import Idealize.ShloMosaic.Lib.Pipeline.Value

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem
open Idealize.ShloMosaic.Pipeline (Dat)

/-- The node update: row n is the perceptron on row n of the node features `x` and of the mean messages `agg`. -/
def update (x : Vec Ideal S100000x32 .f32) (agg : Vec Ideal S100000x64 .f32) (wx : Vec Ideal S32x64 .f32)
    (wa : Vec Ideal S64x64 .f32) (b1 : Vec Ideal S1x64 .f32) (w2 : Vec Ideal S64x32 .f32) (b2 : Vec Ideal S1x32 .f32) :
    Vec Ideal S100000x32 .f32 :=
  fun i => Cert.Mlp.entry (fun c => x (ix2 (i 0) c)) (fun c => agg (ix2 (i 0) c)) (fun c k => wx (ix2 c k))
    (fun c k => wa (ix2 c k)) (fun k => b1 (ix2 0 k)) (fun k q => w2 (ix2 k q)) (fun q => b2 (ix2 0 q)) (i 1)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the two feature windows and the result window are at block row t, the
    parameter windows at the origin. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row p of block t is row 5000·t + p of the array. -/
def row (t : Fin cfg1.N) (p : Fin 5000) : Fin 100000 :=
  ⟨5000 * t.val + p.val, by have h : t.val < 20 := N_1 ▸ t.isLt; have := p.isLt; omega⟩

/-- The node-features window's block at point t, at (p, q), is the array's entry (5000·t + p, q). -/
theorem blk0_apply (c : Dev nD) (t : Fin cfg1.N) (p : Fin 5000) (q : Fin 32) :
    (iblk1 V c 0 t : Vec Ideal S5000x32 .f32) (ix2 p q) = (V c main_arg0 : Vec Ideal S100000x32 .f32) (ix2 (row t p) q) := by
  unfold iblk1
  rw [View.read_apply]
  show V c main_arg0 _ = V c main_arg0 _
  congr 1
  funext a
  apply Fin.ext
  match a with
  | ⟨0, _⟩ => show win1_0.index t 0 * 5000 + 1 * p.val = 5000 * t.val + p.val; rw [(idx_facts t).1.1]; omega
  | ⟨1, _⟩ => show win1_0.index t 1 * 32 + 1 * q.val = q.val; rw [(idx_facts t).1.2]; omega

/-- The mean-messages window's block at point t, at (p, q), is the array's entry (5000·t + p, q). -/
theorem blk1_apply (c : Dev nD) (t : Fin cfg1.N) (p : Fin 5000) (q : Fin 64) :
    (iblk1 V c 1 t : Vec Ideal S5000x64 .f32) (ix2 p q) = (V c main_v21 : Vec Ideal S100000x64 .f32) (ix2 (row t p) q) := by
  unfold iblk1
  rw [View.read_apply]
  show V c main_v21 _ = V c main_v21 _
  congr 1
  funext a
  apply Fin.ext
  match a with
  | ⟨0, _⟩ => show win1_1.index t 0 * 5000 + 1 * p.val = 5000 * t.val + p.val; rw [(idx_facts t).2.1.1]; omega
  | ⟨1, _⟩ => show win1_1.index t 1 * 64 + 1 * q.val = q.val; rw [(idx_facts t).2.1.2]; omega

/-- A parameter window holds its whole array at every point: the node-feature part of the first-layer matrix. -/
theorem blk2_apply (c : Dev nD) (t : Fin cfg1.N) (p : Fin 32) (q : Fin 64) :
    (iblk1 V c 2 t : Vec Ideal S32x64 .f32) (ix2 p q) = (V c main_v22 : Vec Ideal S32x64 .f32) (ix2 p q) := by
  unfold iblk1
  rw [View.read_apply]
  show V c main_v22 _ = V c main_v22 _
  congr 1
  funext a
  apply Fin.ext
  match a with
  | ⟨0, _⟩ => show win1_2.index t 0 * 32 + 1 * p.val = p.val; rw [(idx_facts t).2.2.1.1]; omega
  | ⟨1, _⟩ => show win1_2.index t 1 * 64 + 1 * q.val = q.val; rw [(idx_facts t).2.2.1.2]; omega

/-- The mean-message part of the first-layer matrix. -/
theorem blk3_apply (c : Dev nD) (t : Fin cfg1.N) (p : Fin 64) (q : Fin 64) :
    (iblk1 V c 3 t : Vec Ideal S64x64 .f32) (ix2 p q) = (V c main_v23 : Vec Ideal S64x64 .f32) (ix2 p q) := by
  unfold iblk1
  rw [View.read_apply]
  show V c main_v23 _ = V c main_v23 _
  congr 1
  funext a
  apply Fin.ext
  match a with
  | ⟨0, _⟩ => show win1_3.index t 0 * 64 + 1 * p.val = p.val; rw [(idx_facts t).2.2.2.1.1]; omega
  | ⟨1, _⟩ => show win1_3.index t 1 * 64 + 1 * q.val = q.val; rw [(idx_facts t).2.2.2.1.2]; omega

/-- The first-layer bias row. -/
theorem blk4_apply (c : Dev nD) (t : Fin cfg1.N) (p : Fin 1) (q : Fin 64) :
    (iblk1 V c 4 t : Vec Ideal S1x64 .f32) (ix2 p q) = (V c main_v24 : Vec Ideal S1x64 .f32) (ix2 p q) := by
  unfold iblk1
  rw [View.read_apply]
  show V c main_v24 _ = V c main_v24 _
  congr 1
  funext a
  apply Fin.ext
  match a with
  | ⟨0, _⟩ => show win1_4.index t 0 * 1 + 1 * p.val = p.val; rw [(idx_facts t).2.2.2.2.1.1]; omega
  | ⟨1, _⟩ => show win1_4.index t 1 * 64 + 1 * q.val = q.val; rw [(idx_facts t).2.2.2.2.1.2]; omega

/-- The second-layer matrix. -/
theorem blk5_apply (c : Dev nD) (t : Fin cfg1.N) (p : Fin 64) (q : Fin 32) :
    (iblk1 V c 5 t : Vec Ideal S64x32 .f32) (ix2 p q) = (V c main_arg11 : Vec Ideal S64x32 .f32) (ix2 p q) := by
  unfold iblk1
  rw [View.read_apply]
  show V c main_arg11 _ = V c main_arg11 _
  congr 1
  funext a
  apply Fin.ext
  match a with
  | ⟨0, _⟩ => show win1_5.index t 0 * 64 + 1 * p.val = p.val; rw [(idx_facts t).2.2.2.2.2.1.1]; omega
  | ⟨1, _⟩ => show win1_5.index t 1 * 32 + 1 * q.val = q.val; rw [(idx_facts t).2.2.2.2.2.1.2]; omega

/-- The second-layer bias row. -/
theorem blk6_apply (c : Dev nD) (t : Fin cfg1.N) (p : Fin 1) (q : Fin 32) :
    (iblk1 V c 6 t : Vec Ideal S1x32 .f32) (ix2 p q) = (V c main_v25 : Vec Ideal S1x32 .f32) (ix2 p q) := by
  unfold iblk1
  rw [View.read_apply]
  show V c main_v25 _ = V c main_v25 _
  congr 1
  funext a
  apply Fin.ext
  match a with
  | ⟨0, _⟩ => show win1_6.index t 0 * 1 + 1 * p.val = p.val; rw [(idx_facts t).2.2.2.2.2.2.1.1]; omega
  | ⟨1, _⟩ => show win1_6.index t 1 * 32 + 1 * q.val = q.val; rw [(idx_facts t).2.2.2.2.2.2.1.2]; omega

/-- Entry (p, q) of the result window's block at point t sits at (5000·t + p, q) of the result array. -/
theorem out_emb (t : Fin cfg1.N) (p : Fin 5000) (q : Fin 32) :
    ((cfg1.win 7).blk t).view.emb (ix2 p q) = (ix2 (row t p) q : S100000x32.Idx) := by
  funext a
  apply Fin.ext
  match a with
  | ⟨0, _⟩ => show win1_7.index t 0 * 5000 + 1 * p.val = 5000 * t.val + p.val; rw [(idx_facts t).2.2.2.2.2.2.2.1]; omega
  | ⟨1, _⟩ => show win1_7.index t 1 * 32 + 1 * q.val = q.val; rw [(idx_facts t).2.2.2.2.2.2.2.2]; omega

/-- What point t writes back is block t of the node update computed from the arrays the region finds. -/
theorem flushed_eq (c : Dev nD) (t : Fin cfg1.N) :
    (dat1 V c).flushed 7 t = ((cfg1.win 7).blk t).view.read (Elt Ideal)
      (update (V c main_arg0) (V c main_v21) (V c main_v22) (V c main_v23) (V c main_v24) (V c main_arg11) (V c main_v25)) := by
  show (cfg1.win 7).cut (grid1.coords t) ((dat1 V c).after 7 t) = _
  rw [after1_7]
  unfold out1_7
  rw [View.canon_unit_zero hz]
  simp only [View.ld_unit_zero (S := S5000x32) hz, View.ld_unit_zero (S := S5000x64) hz, View.ld_unit_zero (S := S32x64) hz,
    View.ld_unit_zero (S := S64x64) hz, View.ld_unit_zero (S := S1x64) hz, View.ld_unit_zero (S := S64x32) hz,
    View.ld_unit_zero (S := S1x32) hz]
  funext y
  obtain ⟨p, q, rfl⟩ : ∃ (p : Fin 5000) (q : Fin 32), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t)
      (iblk1 V c 6 t) (ix2 p q)
    = update (V c main_arg0) (V c main_v21) (V c main_v22) (V c main_v23) (V c main_v24) (V c main_arg11) (V c main_v25)
        (((cfg1.win 7).blk t).view.emb (ix2 p q))
  rw [out_emb t p q]
  refine (NodeBody.payload_apply (iblk1 V c 0 t) (iblk1 V c 1 t) (iblk1 V c 2 t) (iblk1 V c 3 t) (iblk1 V c 4 t)
    (iblk1 V c 5 t) (iblk1 V c 6 t) p q).trans ?_
  unfold update
  simp only [blk0_apply, blk1_apply, blk2_apply, blk3_apply, blk4_apply, blk5_apply, blk6_apply]

/-- An index of the result array is in point t's block iff each coordinate is in the block's range on its axis. -/
theorem mem_blk (t : Fin cfg1.N) (i : S100000x32.Idx) :
    i ∈ ((cfg1.win 7).blk t).view.set ↔ ∀ a : Fin 2, win1_7.index t a * S5000x32.size a ≤ (i a).val
      ∧ (i a).val < win1_7.index t a * S5000x32.size a + S5000x32.size a := by
  show i ∈ ((View.whole main_v26).slice (win1_7.rect t)).set ↔ _
  rw [View.set_slice_whole, Rect.mem_set_unit]
  exact Iff.rfl

/-- Row n lies in block n / 5000: the 20 blocks cover the result array. -/
theorem cover (i : S100000x32.Idx) :
    ∃ t : Fin cfg1.N, (cfg1.win 7).flush t = true ∧ i ∈ ((cfg1.win 7).blk t).view.set := by
  have hi0 : (i 0).val < 100000 := (i 0).isLt
  have hi1 : (i 1).val < 32 := (i 1).isLt
  have ht : (i 0).val / 5000 < cfg1.N := by show (i 0).val / 5000 < grid1.N; rw [N_1]; omega
  refine ⟨⟨(i 0).val / 5000, ht⟩, flush1_7 _, ?_⟩
  rw [mem_blk]
  have h7 := (idx_facts ⟨(i 0).val / 5000, ht⟩).2.2.2.2.2.2.2
  intro a
  match a with
  | ⟨0, _⟩ =>
    show win1_7.index ⟨(i 0).val / 5000, ht⟩ 0 * 5000 ≤ (i 0).val ∧ (i 0).val < win1_7.index ⟨(i 0).val / 5000, ht⟩ 0 * 5000 + 5000
    rw [h7.1]; show (i 0).val / 5000 * 5000 ≤ (i 0).val ∧ (i 0).val < (i 0).val / 5000 * 5000 + 5000; omega
  | ⟨1, _⟩ =>
    show win1_7.index ⟨(i 0).val / 5000, ht⟩ 1 * 32 ≤ (i 1).val ∧ (i 1).val < win1_7.index ⟨(i 0).val / 5000, ht⟩ 1 * 32 + 32
    rw [h7.2]; omega

/-- The result array after the region: the node update computed from the arrays the region finds. -/
theorem final (c : Dev nD) :
    (dat1 V c).arrAt 7 cfg1.N
      = update (V c main_arg0) (V c main_v21) (V c main_v22) (V c main_v23) (V c main_v24) (V c main_arg11) (V c main_v25) :=
  (dat1 V c).arrAt_eq_of_cover 7 _ (fun t _ => flushed_eq V c t) cover

end Cert.KernelIdeal.NodeRegion

end
-- ==== Proof.Stages.lean ====
/-
  The two stages of the layer, each as one function of whole arrays.

  The edge stage: message e is the perceptron on the gathered source-node features of edge e (row e of `xs`) and the
  edge's own features (row e of `ea`), with the 64 × 64 first-layer matrix `W1` read as its first 32 rows (met by `xs`) and
  its last 32 rows (met by `ea`).
  The node stage: the new features of node n are the perceptron on the node's features (row n of `x`) and the mean of
  its incoming messages (row n of `agg`), with the 96 × 64 first-layer matrix read as its first 32 rows and its last 64.
  Both programs compute exactly these; they differ only in how they spell the first layer (two products over the two
  halves, or one product over the joined row).
-/
import proofs.«425195_j5695126634531_2_alg».proof.Proof.Spec
import Idealize.ShloMosaic.Lib.ValueIdx

noncomputable section

namespace Cert.Stages

open Idealize.ShloMosaic Idealize.ShloMosaic.ValueIdx

/-- The messages of all 1,600,000 edges. -/
def edgeStage (xs ea : (⟨2, ![1600000, 32]⟩ : Shape).Idx → EReal) (W1 : (⟨2, ![64, 64]⟩ : Shape).Idx → EReal)
    (b1 : (⟨1, ![64]⟩ : Shape).Idx → EReal) (W2 : (⟨2, ![64, 64]⟩ : Shape).Idx → EReal) (b2 : (⟨1, ![64]⟩ : Shape).Idx → EReal) :
    (⟨2, ![1600000, 64]⟩ : Shape).Idx → EReal :=
  fun i => Cert.Mlp.entry (fun c : Fin 32 => xs (ix2 (i 0) c)) (fun c : Fin 32 => ea (ix2 (i 0) c))
    (fun (c : Fin 32) (k : Fin 64) => W1 (ix2 (Fin.castAdd 32 c) k)) (fun (c : Fin 32) (k : Fin 64) => W1 (ix2 (Fin.natAdd 32 c) k))
    (fun k : Fin 64 => b1 (ix1 k)) (fun (k : Fin 64) (q : Fin 64) => W2 (ix2 k q)) (fun q : Fin 64 => b2 (ix1 q)) (i 1)

/-- The new features of all 100,000 nodes. -/
def nodeStage (x : (⟨2, ![100000, 32]⟩ : Shape).Idx → EReal) (agg : (⟨2, ![100000, 64]⟩ : Shape).Idx → EReal)
    (W1 : (⟨2, ![96, 64]⟩ : Shape).Idx → EReal) (b1 : (⟨1, ![64]⟩ : Shape).Idx → EReal)
    (W2 : (⟨2, ![64, 32]⟩ : Shape).Idx → EReal) (b2 : (⟨1, ![32]⟩ : Shape).Idx → EReal) :
    (⟨2, ![100000, 32]⟩ : Shape).Idx → EReal :=
  fun i => Cert.Mlp.entry (fun c : Fin 32 => x (ix2 (i 0) c)) (fun c : Fin 64 => agg (ix2 (i 0) c))
    (fun (c : Fin 32) (k : Fin 64) => W1 (ix2 (Fin.castAdd 64 c) k)) (fun (c : Fin 64) (k : Fin 64) => W1 (ix2 (Fin.natAdd 32 c) k))
    (fun k : Fin 64 => b1 (ix1 k)) (fun (k : Fin 64) (q : Fin 32) => W2 (ix2 k q)) (fun q : Fin 32 => b2 (ix1 q)) (i 1)

end Cert.Stages

end
-- ==== Proof.StageForms.lean ====
/-
  The regions' functions are the stages.

  The kernel program hands each region its first-layer matrix already cut in two and its bias vectors laid out as rows.
  Row c of the top cut is row c of the whole matrix, row c of the bottom cut is row 32 + c, and entry k of a bias row is
  entry k of the bias vector; so the perceptron over the cut parameters is the stage over the whole ones.
-/
import proofs.«425195_j5695126634531_2_alg».proof.Proof.EdgeRegion
import proofs.«425195_j5695126634531_2_alg».proof.Proof.NodeRegion
import proofs.«425195_j5695126634531_2_alg».proof.Proof.Stages
import Idealize.ShloMosaic.Lib.Pipeline.Value

noncomputable section

namespace Cert.KernelIdeal.StageForms

open Cert.KernelIdeal Cert.KernelIdeal.Gen
open Idealize.ShloMosaic Idealize.ShloMosaic.ValueIdx

/-- The top 32 rows of the edge stage's first-layer matrix. -/
theorem edge_top_apply (x5 : FVec Ideal S64x64 .f32) (c : Fin 32) (k : Fin 64) :
    extractStridedSlice S32x64 ![0, 0] x5 slices_S64x64_S32x64_0_0 (ix2 c k) = x5 (ix2 (Fin.castAdd 32 c) k) :=
  extractStridedSlice_apply ![0, 0] x5 slices_S64x64_S32x64_0_0 (ix2 c k) (ix2 (Fin.castAdd 32 c) k) (fun a => match a with
    | ⟨0, _⟩ => by show c.val = 0 + c.val; omega
    | ⟨1, _⟩ => by show k.val = 0 + k.val; omega)

/-- The bottom 32 rows of the edge stage's first-layer matrix. -/
theorem edge_bottom_apply (x5 : FVec Ideal S64x64 .f32) (c : Fin 32) (k : Fin 64) :
    extractStridedSlice S32x64 ![32, 0] x5 slices_S64x64_S32x64_32_0 (ix2 c k) = x5 (ix2 (Fin.natAdd 32 c) k) :=
  extractStridedSlice_apply ![32, 0] x5 slices_S64x64_S32x64_32_0 (ix2 c k) (ix2 (Fin.natAdd 32 c) k) (fun a => match a with
    | ⟨0, _⟩ => by show 32 + c.val = 32 + c.val; rfl
    | ⟨1, _⟩ => by show k.val = 0 + k.val; omega)

/-- The top 32 rows of the node stage's first-layer matrix. -/
theorem node_top_apply (x9 : FVec Ideal S96x64 .f32) (c : Fin 32) (k : Fin 64) :
    extractStridedSlice S32x64 ![0, 0] x9 slices_S96x64_S32x64_0_0 (ix2 c k) = x9 (ix2 (Fin.castAdd 64 c) k) :=
  extractStridedSlice_apply ![0, 0] x9 slices_S96x64_S32x64_0_0 (ix2 c k) (ix2 (Fin.castAdd 64 c) k) (fun a => match a with
    | ⟨0, _⟩ => by show c.val = 0 + c.val; omega
    | ⟨1, _⟩ => by show k.val = 0 + k.val; omega)

/-- The bottom 64 rows of the node stage's first-layer matrix. -/
theorem node_bottom_apply (x9 : FVec Ideal S96x64 .f32) (c : Fin 64) (k : Fin 64) :
    extractStridedSlice S64x64 ![32, 0] x9 slices_S96x64_S64x64_32_0 (ix2 c k) = x9 (ix2 (Fin.natAdd 32 c) k) :=
  extractStridedSlice_apply ![32, 0] x9 slices_S96x64_S64x64_32_0 (ix2 c k) (ix2 (Fin.natAdd 32 c) k) (fun a => match a with
    | ⟨0, _⟩ => by show 32 + c.val = 32 + c.val; rfl
    | ⟨1, _⟩ => by show k.val = 0 + k.val; omega)

/-- A vector of 64 laid out as one row. -/
theorem row64_apply (b : FVec Ideal S64 .f32) (k : Fin 64) :
    shapeCast S1x64 b shapeCasts_S64_S1x64 (ix2 0 k) = b (ix1 k) :=
  shapeCast_apply b shapeCasts_S64_S1x64 (ix2 0 k) (ix1 k)
    (by rw [Shape.rowMajor_val_one, Shape.rowMajor_val_two]; show k.val = 0 * 64 + k.val; omega)

/-- A vector of 32 laid out as one row. -/
theorem row32_apply (b : FVec Ideal S32 .f32) (k : Fin 32) :
    shapeCast S1x32 b shapeCasts_S32_S1x32 (ix2 0 k) = b (ix1 k) :=
  shapeCast_apply b shapeCasts_S32_S1x32 (ix2 0 k) (ix1 k)
    (by rw [Shape.rowMajor_val_one, Shape.rowMajor_val_two]; show k.val = 0 * 32 + k.val; omega)

/-- The edge region's messages over the cut parameters are the edge stage over the whole ones. -/
theorem messages_eq_stage (xs ea : Vec Ideal S1600000x32 .f32) (x5 : FVec Ideal S64x64 .f32) (x6 : FVec Ideal S64 .f32)
    (x7 : FVec Ideal S64x64 .f32) (x8 : FVec Ideal S64 .f32) :
    EdgeRegion.messages xs ea (extractStridedSlice S32x64 ![0, 0] x5 slices_S64x64_S32x64_0_0)
        (extractStridedSlice S32x64 ![32, 0] x5 slices_S64x64_S32x64_32_0) (shapeCast S1x64 x6 shapeCasts_S64_S1x64) x7
        (shapeCast S1x64 x8 shapeCasts_S64_S1x64)
      = Cert.Stages.edgeStage xs ea x5 x6 x7 x8 := by
  funext i
  unfold EdgeRegion.messages Cert.Stages.edgeStage
  simp only [edge_top_apply, edge_bottom_apply, row64_apply]

/-- The node region's update over the cut parameters is the node stage over the whole ones. -/
theorem update_eq_stage (x : Vec Ideal S100000x32 .f32) (agg : Vec Ideal S100000x64 .f32) (x9 : FVec Ideal S96x64 .f32)
    (x10 : FVec Ideal S64 .f32) (x11 : FVec Ideal S64x32 .f32) (x12 : FVec Ideal S32 .f32) :
    NodeRegion.update x agg (extractStridedSlice S32x64 ![0, 0] x9 slices_S96x64_S32x64_0_0)
        (extractStridedSlice S64x64 ![32, 0] x9 slices_S96x64_S64x64_32_0) (shapeCast S1x64 x10 shapeCasts_S64_S1x64) x11
        (shapeCast S1x32 x12 shapeCasts_S32_S1x32)
      = Cert.Stages.nodeStage x agg x9 x10 x11 x12 := by
  funext i
  unfold NodeRegion.update Cert.Stages.nodeStage
  simp only [node_top_apply, node_bottom_apply, row64_apply, row32_apply]

end Cert.KernelIdeal.StageForms

end
-- ==== Proof.KernelValue.lean ====
/-
  The kernel program's result as one function of its arguments.

  The buffers are followed from the launch memory through the program: the edge list cut in two, the row gather with a
  fill, the edge stage's parameters; the edge region, whose result array is the edge stage of what it finds; the mean of
  the incoming messages and the node stage's parameters; the node region, whose result array is the node stage of what it
  finds. Each region reads its parameters and features as the stretches before it left them, and nothing else writes
  them. The result is

      nodeStage x (meanIncoming (edgeStage (takeRows x col) edge_attr W1a b1a W1b b1b) row) W2a b2a W2b b2b

  with row and col the two rows of the edge list.
-/
import proofs.«425195_j5695126634531_2_alg».proof.Proof.Gen.KernelIdeal.Frame
import proofs.«425195_j5695126634531_2_alg».proof.Proof.HostStretches
import proofs.«425195_j5695126634531_2_alg».proof.Proof.EdgeRegion
import proofs.«425195_j5695126634531_2_alg».proof.Proof.NodeRegion
import proofs.«425195_j5695126634531_2_alg».proof.Proof.StageForms

set_option maxRecDepth 16384

noncomputable section

namespace Cert.KernelIdeal.KernelValue

open Cert.KernelIdeal Cert.KernelIdeal.Gen Cert.KernelIdeal.HostStretches
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- An argument's contents at launch. -/
abbrev arg (b : Ref sig .tc) : Buf (Elt Ideal) ((c : Thread nD τ).loc b) := m ((c : Thread nD τ).loc b)

/-! ## Before the edge region -/

theorem w1_row : W1 m ρ c (Proc.devRef .tc main_v1) = rowOf (arg m c main_arg1) := s0_row (W0 m ρ c)
theorem w1_col : W1 m ρ c (Proc.devRef .tc main_v3) = colOf (arg m c main_arg1) := s0_col (W0 m ρ c)
theorem w1_arg (b : Ref sig .tc) (h0 : b ≠ main_v0 ∧ b ≠ main_v1 ∧ b ≠ main_v2 ∧ b ≠ main_v3) :
    W1 m ρ c (Proc.devRef .tc b) = arg m c b := s0_arg (W0 m ρ c) b h0

theorem w2_take : W2 m ρ c (Proc.devRef .tc main_v4) = takeRows (arg m c main_arg0) (colOf (arg m c main_arg1)) := by
  refine (s1_take (W1 m ρ c)).trans ?_
  rw [w1_arg m ρ c main_arg0 (by decide), w1_col]
theorem w2_row : W2 m ρ c (Proc.devRef .tc main_v1) = rowOf (arg m c main_arg1) :=
  (s1_arg (W1 m ρ c) main_v1 (by decide)).trans (w1_row m ρ c)

/-- A buffer no stretch before the edge region writes holds its launch contents when the region is entered. -/
theorem w3_arg (b : Ref sig .tc) (h0 : b ≠ main_v0 ∧ b ≠ main_v1 ∧ b ≠ main_v2 ∧ b ≠ main_v3)
    (h1 : ∀ w ∈ ([main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v4] : List (Ref sig .tc)), b ≠ w)
    (h2 : ∀ w ∈ ([main_v5, main_v6, main_v7, main_v8] : List (Ref sig .tc)), b ≠ w) :
    W3 m ρ c (Proc.devRef .tc b) = arg m c b :=
  (s2_arg (W2 m ρ c) b h2).trans ((s1_arg (W1 m ρ c) b h1).trans (w1_arg m ρ c b h0))

theorem w3_take : V3 m ρ c main_v4 = takeRows (arg m c main_arg0) (colOf (arg m c main_arg1)) :=
  (s2_arg (W2 m ρ c) main_v4 (by decide)).trans (w2_take m ρ c)
theorem w3_row : W3 m ρ c (Proc.devRef .tc main_v1) = rowOf (arg m c main_arg1) :=
  (s2_arg (W2 m ρ c) main_v1 (by decide)).trans (w2_row m ρ c)
theorem w3_ea : V3 m ρ c main_arg2 = arg m c main_arg2 := w3_arg m ρ c main_arg2 (by decide) (by decide) (by decide)
theorem w3_w2 : V3 m ρ c main_arg7 = arg m c main_arg7 := w3_arg m ρ c main_arg7 (by decide) (by decide) (by decide)
theorem w2_raw (b : Ref sig .tc) (h0 : b ≠ main_v0 ∧ b ≠ main_v1 ∧ b ≠ main_v2 ∧ b ≠ main_v3)
    (h1 : ∀ w ∈ ([main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v4] : List (Ref sig .tc)), b ≠ w) :
    W2 m ρ c (Proc.devRef .tc b) = arg m c b :=
  (s1_arg (W1 m ρ c) b h1).trans (w1_arg m ρ c b h0)
theorem w3_wx : V3 m ρ c main_v5 = extractStridedSlice S32x64 ![0, 0] (arg m c main_arg5) slices_S64x64_S32x64_0_0 := by
  refine (s2_wx (W2 m ρ c)).trans ?_
  rw [w2_raw m ρ c main_arg5 (by decide) (by decide)]
theorem w3_we : V3 m ρ c main_v6 = extractStridedSlice S32x64 ![32, 0] (arg m c main_arg5) slices_S64x64_S32x64_32_0 := by
  refine (s2_we (W2 m ρ c)).trans ?_
  rw [w2_raw m ρ c main_arg5 (by decide) (by decide)]
theorem w3_b1 : V3 m ρ c main_v7 = shapeCast S1x64 (arg m c main_arg6) shapeCasts_S64_S1x64 := by
  refine (s2_b1 (W2 m ρ c)).trans ?_
  rw [w2_raw m ρ c main_arg6 (by decide) (by decide)]
theorem w3_b2 : V3 m ρ c main_v8 = shapeCast S1x64 (arg m c main_arg8) shapeCasts_S64_S1x64 := by
  refine (s2_b2 (W2 m ρ c)).trans ?_
  rw [w2_raw m ρ c main_arg8 (by decide) (by decide)]

/-! ## The edge region -/

/-- The gathered source-node features the edge region finds. -/
abbrev gathered : FVec Ideal S1600000x32 .f32 := takeRows (arg m c main_arg0) (colOf (arg m c main_arg1))

/-- The messages: the edge stage of the gathered features and the edge features. -/
abbrev msgs : FVec Ideal S1600000x64 .f32 :=
  Cert.Stages.edgeStage (gathered m c) (arg m c main_arg2) (arg m c main_arg5) (arg m c main_arg6) (arg m c main_arg7)
    (arg m c main_arg8)

theorem w4_msgs : W4 m ρ c (Proc.devRef .tc main_v9) = msgs m c := by
  refine (W4_arr m ρ c 7).trans ?_
  rw [EdgeRegion.final (V3 m ρ) c, w3_take, w3_ea, w3_wx, w3_we, w3_b1, w3_w2, w3_b2]
  exact StageForms.messages_eq_stage _ _ _ _ _ _

/-- A buffer that is none of the edge region's arrays and that no earlier stretch writes holds its launch contents
    after the region. -/
theorem w4_arg (b : Ref sig .tc) (hw : ∀ w, Pipeline.arrRef spec0 w ≠ b)
    (h0 : b ≠ main_v0 ∧ b ≠ main_v1 ∧ b ≠ main_v2 ∧ b ≠ main_v3)
    (h1 : ∀ w ∈ ([main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v4] : List (Ref sig .tc)), b ≠ w)
    (h2 : ∀ w ∈ ([main_v5, main_v6, main_v7, main_v8] : List (Ref sig .tc)), b ≠ w) :
    W4 m ρ c (Proc.devRef .tc b) = arg m c b :=
  (W4_of_ne m ρ c b hw).trans (w3_arg m ρ c b h0 h1 h2)
theorem w4_row : W4 m ρ c (Proc.devRef .tc main_v1) = rowOf (arg m c main_arg1) :=
  (W4_of_ne m ρ c main_v1 (by decide)).trans (w3_row m ρ c)

/-! ## Between the regions -/

/-- The mean of the incoming messages the node region finds. -/
abbrev mean : FVec Ideal S100000x64 .f32 := meanIncoming (msgs m c) (rowOf (arg m c main_arg1))

theorem w5_mean : V5 m ρ c main_v21 = mean m c := by
  refine (s3_mean (W4 m ρ c)).trans ?_
  rw [w4_msgs, w4_row]
theorem w5_x : V5 m ρ c main_arg0 = arg m c main_arg0 :=
  (s3_arg (W4 m ρ c) main_arg0 (by decide)).trans (w4_arg m ρ c main_arg0 (by decide) (by decide) (by decide) (by decide))
theorem w5_w2 : V5 m ρ c main_arg11 = arg m c main_arg11 :=
  (s3_arg (W4 m ρ c) main_arg11 (by decide)).trans (w4_arg m ρ c main_arg11 (by decide) (by decide) (by decide) (by decide))
theorem w5_wx : V5 m ρ c main_v22 = extractStridedSlice S32x64 ![0, 0] (arg m c main_arg9) slices_S96x64_S32x64_0_0 := by
  refine (s3_wx (W4 m ρ c)).trans ?_
  rw [w4_arg m ρ c main_arg9 (by decide) (by decide) (by decide) (by decide)]
theorem w5_wa : V5 m ρ c main_v23 = extractStridedSlice S64x64 ![32, 0] (arg m c main_arg9) slices_S96x64_S64x64_32_0 := by
  refine (s3_wa (W4 m ρ c)).trans ?_
  rw [w4_arg m ρ c main_arg9 (by decide) (by decide) (by decide) (by decide)]
theorem w5_b1 : V5 m ρ c main_v24 = shapeCast S1x64 (arg m c main_arg10) shapeCasts_S64_S1x64 := by
  refine (s3_b1 (W4 m ρ c)).trans ?_
  rw [w4_arg m ρ c main_arg10 (by decide) (by decide) (by decide) (by decide)]
theorem w5_b2 : V5 m ρ c main_v25 = shapeCast S1x32 (arg m c main_arg12) shapeCasts_S32_S1x32 := by
  refine (s3_b2 (W4 m ρ c)).trans ?_
  rw [w4_arg m ρ c main_arg12 (by decide) (by decide) (by decide) (by decide)]

/-! ## The node region: the result -/

/-- What the kernel program's result buffer holds at the end. -/
abbrev result : FVec Ideal S100000x32 .f32 :=
  Cert.Stages.nodeStage (arg m c main_arg0) (mean m c) (arg m c main_arg9) (arg m c main_arg10) (arg m c main_arg11)
    (arg m c main_arg12)

theorem result_eq : W6 m ρ c (Proc.devRef .tc main_v26) = result m c := by
  refine (W6_arr m ρ c 7).trans ?_
  rw [NodeRegion.final (V5 m ρ) c, w5_x, w5_mean, w5_wx, w5_wa, w5_b1, w5_w2, w5_b2]
  exact StageForms.update_eq_stage _ _ _ _ _ _

end Cert.KernelIdeal.KernelValue

end
-- ==== Proof.PreRange.lean ====
/-
  What the precondition says of the source indices.

  The precondition is a conjunction evaluated to one bit; its last two conjuncts are "every source index is at least
  −100000" and "every source index is below 100000", each an `and` over all 1,600,000 edges of a signed comparison of
  row 1 of the edge list with a constant. Where the whole conjunction is 1, each of the two is 1, and an `and` over all
  edges that is 1 had a 1 at every edge.
-/
import proofs.«425195_j5695126634531_2_alg».proof.Proof.Gen.Pre_finite_inputs
import proofs.«425195_j5695126634531_2_alg».proof.Proof.HostStretches
import Idealize.ShloMosaic.Lib.ReduceAll
import Idealize.ShloMosaic.Lib.ValueIdx

noncomputable section

namespace Cert.Proof.PreRange

open Idealize.ShloMosaic
open Cert.KernelIdeal.HostStretches (colOf)

instance : Subsingleton Cert.Pre_finite_inputs.S_.Idx := ⟨fun a b => funext fun d => d.elim0⟩

/-- The last part of the precondition at 1: both range conjuncts hold at every edge. -/
theorem part3_range (x1 : IVec Cert.Pre_finite_inputs.S2x1600000 32) (v48 : IVec Cert.Pre_finite_inputs.S_ 1)
    (v49 v50 : FVec Ideal Cert.Pre_finite_inputs.S32 .f32)
    (h : Cert.Pre_finite_inputs.fn_part3 (F := Ideal) x1 v48 v49 v50 ValueIdx.ix0 = 1#1) :
    (∀ e : Cert.KernelIdeal.S1600000.Idx, IntOp.cmpi .sge (colOf x1 e) 4294867296#32 = 1#1)
      ∧ (∀ e : Cert.KernelIdeal.S1600000.Idx, IntOp.cmpi .slt (colOf x1 e) 100000#32 = 1#1) := by
  unfold Cert.Pre_finite_inputs.fn_part3 at h
  dsimp only at h
  obtain ⟨h59, h64⟩ := IntOp.andi_eq_one.1 h
  obtain ⟨-, h58⟩ := IntOp.andi_eq_one.1 h59
  exact ⟨fun e => Host.reduce_andi_all _ _ _ _ _ h58 e, fun e => Host.reduce_andi_all _ _ _ _ _ h64 e⟩

/-- The precondition at all ones: both range conjuncts hold at every edge. -/
theorem col_range (x0 : FVec Ideal Cert.Pre_finite_inputs.S100000x32 .f32) (x1 : IVec Cert.Pre_finite_inputs.S2x1600000 32)
    (x2 : FVec Ideal Cert.Pre_finite_inputs.S1600000x32 .f32) (x3 : FVec Ideal Cert.Pre_finite_inputs.S1x8 .f32)
    (x4 : IVec Cert.Pre_finite_inputs.S100000 32) (x5 : FVec Ideal Cert.Pre_finite_inputs.S64x64 .f32)
    (x6 : FVec Ideal Cert.Pre_finite_inputs.S64 .f32) (x7 : FVec Ideal Cert.Pre_finite_inputs.S64x64 .f32)
    (x8 : FVec Ideal Cert.Pre_finite_inputs.S64 .f32) (x9 : FVec Ideal Cert.Pre_finite_inputs.S96x64 .f32)
    (x10 : FVec Ideal Cert.Pre_finite_inputs.S64 .f32) (x11 : FVec Ideal Cert.Pre_finite_inputs.S64x32 .f32)
    (x12 : FVec Ideal Cert.Pre_finite_inputs.S32 .f32)
    (h : Cert.Pre_finite_inputs.fn (F := Ideal) x0 x1 x2 x3 x4 x5 x6 x7 x8 x9 x10 x11 x12 = fun _ => 1#1) :
    (∀ e : Cert.KernelIdeal.S1600000.Idx, IntOp.cmpi .sge (colOf x1 e) 4294867296#32 = 1#1)
      ∧ (∀ e : Cert.KernelIdeal.S1600000.Idx, IntOp.cmpi .slt (colOf x1 e) 100000#32 = 1#1) := by
  have h0 := congrFun h ValueIdx.ix0
  unfold Cert.Pre_finite_inputs.fn Cert.Pre_finite_inputs.fn_part1 Cert.Pre_finite_inputs.fn_part2 at h0
  exact part3_range x1 _ _ _ h0

end Cert.Proof.PreRange

end
-- ==== Proof.RefEdge.lean ====
/-
  The reference's edge stage is the edge stage.

  The reference joins the gathered source-node features and the edge features into rows of 64 numbers, contracts them with
  the whole 64 × 64 first-layer matrix, adds the bias, takes max(·, 0), contracts with the second-layer matrix and adds its
  bias. Entry c of a joined row is the gathered row's entry c for c < 32 and the edge row's entry c − 32 otherwise, so the
  contraction over the 64 joined entries is the sum of the two contractions over 32: the perceptron's entry.
-/
import proofs.«425195_j5695126634531_2_alg».proof.Proof.Gen.ReferenceIdeal.Read
import proofs.«425195_j5695126634531_2_alg».proof.Proof.Stages
import Idealize.ShloMosaic.Lib.Pipeline.Value

noncomputable section

open scoped BigOperators

namespace Cert.ReferenceIdeal.EdgeValue

open Cert.ReferenceIdeal Cert.ReferenceIdeal.Gen Cert.ReferenceIdeal.Read
open Idealize.ShloMosaic Idealize.ShloMosaic.ValueIdx

variable (x0 : (⟨S100000x32, .f32⟩ : BufTy).Contents (Elt Ideal)) (x1 : (⟨S2x1600000, .i32⟩ : BufTy).Contents (Elt Ideal))
  (x2 : (⟨S1600000x32, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal))

/-- Entry c of joined row e: the gathered row's on the first 32 coordinates, the edge row's on the last 32. -/
theorem joined_apply (e : Fin 1600000) (c : Fin (32 + 32)) :
    val_main_v11 (F := Ideal) x0 x1 x2 (ix2 e c)
      = Fin.append (fun c' : Fin 32 => val_main_v10 (F := Ideal) x0 x1 (ix2 e c')) (fun c' : Fin 32 => x2 (ix2 e c')) c := by
  unfold val_main_v11
  generalize val_main_v10 (F := Ideal) x0 x1 = g
  induction c using Fin.addCases with
  | left c' =>
    rw [Fin.append_left]
    exact concatenate_pair_apply_left 1 g x2 concatenates_S1600000x32_S1600000x32_S1600000x64_d1 (ix2 e (Fin.castAdd 32 c')) rfl
      (ix2 e c') (fun b => match b with | ⟨0, _⟩ => rfl | ⟨1, _⟩ => rfl)
  | right c' =>
    rw [Fin.append_right]
    exact concatenate_pair_apply_right 1 g x2 concatenates_S1600000x32_S1600000x32_S1600000x64_d1 (ix2 e (Fin.natAdd 32 c')) rfl rfl
      (ix2 e c') (fun b hb => match b with | ⟨0, _⟩ => rfl | ⟨1, _⟩ => absurd rfl hb)
      (by show c'.val + 32 = 32 + c'.val; omega)

theorem lidx17_eq (e : Fin 1600000) (j k : Fin 64) : lidx_main_v17 (ix2 e j) k = ix2 e k :=
  funext fun a => Fin.ext (by match a with | ⟨0, _⟩ => rfl | ⟨1, _⟩ => rfl)
theorem ridx17_eq (e : Fin 1600000) (j k : Fin 64) : ridx_main_v17 (ix2 e j) k = ix2 k j :=
  funext fun a => Fin.ext (by match a with | ⟨0, _⟩ => rfl | ⟨1, _⟩ => rfl)
theorem lidx12_eq (e : Fin 1600000) (k c : Fin 64) : lidx_main_v12 (ix2 e k) c = ix2 e c :=
  funext fun a => Fin.ext (by match a with | ⟨0, _⟩ => rfl | ⟨1, _⟩ => rfl)
theorem ridx12_eq (e : Fin 1600000) (k c : Fin 64) : ridx_main_v12 (ix2 e k) c = ix2 c k :=
  funext fun a => Fin.ext (by match a with | ⟨0, _⟩ => rfl | ⟨1, _⟩ => rfl)
theorem bias1_idx (e : Fin 1600000) (k : Fin 64) : idx_main_v13 (idx_main_v14 (ix2 e k)) = ix1 k :=
  funext fun a => Fin.ext (by match a with | ⟨0, _⟩ => rfl)
theorem bias2_idx (e : Fin 1600000) (j : Fin 64) : idx_main_v18 (idx_main_v19 (ix2 e j)) = ix1 j :=
  funext fun a => Fin.ext (by match a with | ⟨0, _⟩ => rfl)

/-- The reference's messages are the edge stage of its gathered features. -/
theorem edge_eq :
    val_main_v20 (F := Ideal) x0 x1 x2 x5 x6 x7 x8
      = Cert.Stages.edgeStage (val_main_v10 (F := Ideal) x0 x1) x2 x5 x6 x7 x8 := by
  funext i
  obtain ⟨e, j, rfl⟩ : ∃ (e : Fin 1600000) (j : Fin 64), i = ix2 e j := ⟨i 0, i 1, eq_ix2 i⟩
  rw [val_main_v20_apply, val_main_v17_apply, val_main_v19_apply, val_main_v18_apply]
  simp only [val_main_v16_apply, val_main_v15_apply, val_main_v12_apply, val_main_v14_apply, val_main_v13_apply,
    val_main_call0_v0_apply, val_main_call0_cst_apply, lidx17_eq, ridx17_eq, lidx12_eq, ridx12_eq, bias1_idx, bias2_idx]
  simp only [Ideal.addf_def, Ideal.maximumf_def, Ideal.ofBits_def, Ideal.ofBits_zero_f32]
  unfold Cert.Stages.edgeStage
  have hj : ∀ (k : Fin 64), (∑ c : Fin 64, val_main_v11 (F := Ideal) x0 x1 x2 (ix2 e c) * x5 (ix2 c k))
      = ∑ c : Fin (32 + 32), Fin.append (fun c' : Fin 32 => val_main_v10 (F := Ideal) x0 x1 (ix2 e c')) (fun c' : Fin 32 => x2 (ix2 e c')) c
          * x5 (ix2 c k) :=
    fun k => Finset.sum_congr rfl fun c _ => by rw [joined_apply x0 x1 x2 e c]
  simp only [hj]
  exact Cert.Mlp.entry_of_joined (fun c' : Fin 32 => val_main_v10 (F := Ideal) x0 x1 (ix2 e c')) (fun c' : Fin 32 => x2 (ix2 e c'))
    (fun (c : Fin (32 + 32)) (k : Fin 64) => x5 (ix2 c k)) (fun k : Fin 64 => x6 (ix1 k)) (fun (k : Fin 64) (q : Fin 64) => x7 (ix2 k q))
    (fun q : Fin 64 => x8 (ix1 q)) j

end Cert.ReferenceIdeal.EdgeValue

end
-- ==== Proof.RefNode.lean ====
/-
  The reference's node stage is the node stage.

  The reference joins each node's 32 features and the 64 entries of the mean of its incoming messages into a row of 96
  numbers, contracts it with the whole 96 × 64 first-layer matrix, adds the bias, takes max(·, 0), contracts with the 64 × 32
  second-layer matrix and adds its bias. Entry c of a joined row is the feature row's entry c for c < 32 and the mean
  row's entry c − 32 otherwise, so the contraction over the 96 joined entries is the sum of a contraction over 32 and one
  over 64: the perceptron's entry.
-/
import proofs.«425195_j5695126634531_2_alg».proof.Proof.Gen.ReferenceIdeal.Read
import proofs.«425195_j5695126634531_2_alg».proof.Proof.Stages
import Idealize.ShloMosaic.Lib.Pipeline.Value

noncomputable section

open scoped BigOperators

namespace Cert.ReferenceIdeal.NodeValue

open Cert.ReferenceIdeal Cert.ReferenceIdeal.Gen Cert.ReferenceIdeal.Read
open Idealize.ShloMosaic Idealize.ShloMosaic.ValueIdx

variable (x0 : (⟨S100000x32, .f32⟩ : BufTy).Contents (Elt Ideal)) (x1 : (⟨S2x1600000, .i32⟩ : BufTy).Contents (Elt Ideal))
  (x2 : (⟨S1600000x32, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S96x64, .f32⟩ : BufTy).Contents (Elt Ideal))
  (x10 : (⟨S64, .f32⟩ : BufTy).Contents (Elt Ideal)) (x11 : (⟨S64x32, .f32⟩ : BufTy).Contents (Elt Ideal))
  (x12 : (⟨S32, .f32⟩ : BufTy).Contents (Elt Ideal))

/-- Entry c of joined row n: the node's features on the first 32 coordinates, its mean message on the last 64. -/
theorem joined_apply (n : Fin 100000) (c : Fin (32 + 64)) :
    val_main_v33 (F := Ideal) x0 x1 x2 x5 x6 x7 x8 (ix2 n c)
      = Fin.append (fun c' : Fin 32 => x0 (ix2 n c'))
          (fun c' : Fin 64 => val_main_v32 (F := Ideal) x0 x1 x2 x5 x6 x7 x8 (ix2 n c')) c := by
  unfold val_main_v33
  generalize val_main_v32 (F := Ideal) x0 x1 x2 x5 x6 x7 x8 = g
  induction c using Fin.addCases with
  | left c' =>
    rw [Fin.append_left]
    exact concatenate_pair_apply_left 1 x0 g concatenates_S100000x32_S100000x64_S100000x96_d1 (ix2 n (Fin.castAdd 64 c')) rfl
      (ix2 n c') (fun b => match b with | ⟨0, _⟩ => rfl | ⟨1, _⟩ => rfl)
  | right c' =>
    rw [Fin.append_right]
    exact concatenate_pair_apply_right 1 x0 g concatenates_S100000x32_S100000x64_S100000x96_d1 (ix2 n (Fin.natAdd 32 c')) rfl rfl
      (ix2 n c') (fun b hb => match b with | ⟨0, _⟩ => rfl | ⟨1, _⟩ => absurd rfl hb)
      (by show c'.val + 32 = 32 + c'.val; omega)

theorem lidx39_eq (n : Fin 100000) (j : Fin 32) (k : Fin 64) : lidx_main_v39 (ix2 n j) k = ix2 n k :=
  funext fun a => Fin.ext (by match a with | ⟨0, _⟩ => rfl | ⟨1, _⟩ => rfl)
theorem ridx39_eq (n : Fin 100000) (j : Fin 32) (k : Fin 64) : ridx_main_v39 (ix2 n j) k = ix2 k j :=
  funext fun a => Fin.ext (by match a with | ⟨0, _⟩ => rfl | ⟨1, _⟩ => rfl)
theorem lidx34_eq (n : Fin 100000) (k : Fin 64) (c : Fin 96) : lidx_main_v34 (ix2 n k) c = ix2 n c :=
  funext fun a => Fin.ext (by match a with | ⟨0, _⟩ => rfl | ⟨1, _⟩ => rfl)
theorem ridx34_eq (n : Fin 100000) (k : Fin 64) (c : Fin 96) : ridx_main_v34 (ix2 n k) c = ix2 c k :=
  funext fun a => Fin.ext (by match a with | ⟨0, _⟩ => rfl | ⟨1, _⟩ => rfl)
theorem bias1_idx (n : Fin 100000) (k : Fin 64) : idx_main_v35 (idx_main_v36 (ix2 n k)) = ix1 k :=
  funext fun a => Fin.ext (by match a with | ⟨0, _⟩ => rfl)
theorem bias2_idx (n : Fin 100000) (j : Fin 32) : idx_main_v40 (idx_main_v41 (ix2 n j)) = ix1 j :=
  funext fun a => Fin.ext (by match a with | ⟨0, _⟩ => rfl)

/-- The reference's result is the node stage of the node features and its mean messages. -/
theorem node_eq :
    val_main_v42 (F := Ideal) x0 x1 x2 x5 x6 x7 x8 x9 x10 x11 x12
      = Cert.Stages.nodeStage x0 (val_main_v32 (F := Ideal) x0 x1 x2 x5 x6 x7 x8) x9 x10 x11 x12 := by
  funext i
  obtain ⟨n, j, rfl⟩ : ∃ (n : Fin 100000) (j : Fin 32), i = ix2 n j := ⟨i 0, i 1, eq_ix2 i⟩
  rw [val_main_v42_apply, val_main_v39_apply, val_main_v41_apply, val_main_v40_apply]
  simp only [val_main_v38_apply, val_main_v37_apply, val_main_v34_apply, val_main_v36_apply, val_main_v35_apply,
    val_main_call1_v0_apply, val_main_call1_cst_apply, lidx39_eq, ridx39_eq, lidx34_eq, ridx34_eq, bias1_idx, bias2_idx]
  simp only [Ideal.addf_def, Ideal.maximumf_def, Ideal.ofBits_def, Ideal.ofBits_zero_f32]
  unfold Cert.Stages.nodeStage
  have hj : ∀ (k : Fin 64), (∑ c : Fin 96, val_main_v33 (F := Ideal) x0 x1 x2 x5 x6 x7 x8 (ix2 n c) * x9 (ix2 c k))
      = ∑ c : Fin (32 + 64), Fin.append (fun c' : Fin 32 => x0 (ix2 n c'))
          (fun c' : Fin 64 => val_main_v32 (F := Ideal) x0 x1 x2 x5 x6 x7 x8 (ix2 n c')) c * x9 (ix2 c k) :=
    fun k => Finset.sum_congr rfl fun c _ => by rw [joined_apply x0 x1 x2 x5 x6 x7 x8 n c]
  simp only [hj]
  exact Cert.Mlp.entry_of_joined (fun c' : Fin 32 => x0 (ix2 n c'))
    (fun c' : Fin 64 => val_main_v32 (F := Ideal) x0 x1 x2 x5 x6 x7 x8 (ix2 n c'))
    (fun (c : Fin (32 + 64)) (k : Fin 64) => x9 (ix2 c k)) (fun k : Fin 64 => x10 (ix1 k)) (fun (k : Fin 64) (q : Fin 32) => x11 (ix2 k q))
    (fun q : Fin 32 => x12 (ix1 q)) j

end Cert.ReferenceIdeal.NodeValue

end
-- ==== Proof.TakeInRange.lean ====
/-
  Where every source index is in range, the row gather with a fill is the plain row gather.

  A source index c is in range when −100000 ≤ c < 100000 as a signed 32-bit word: numpy's indexing of a table of 100000
  rows. The index is wrapped once, w = c + 100000 if c < 0 and w = c otherwise; the sum does not overflow (c ≥ −100000), so
  0 ≤ w ≤ 99999 in both cases. The test the gather makes on w therefore holds at every edge, its mask is all ones, and
  every row of the result is the gathered row, never the fill value.
-/
import proofs.«425195_j5695126634531_2_alg».proof.Proof.HostStretches
import Idealize.ShloMosaic.PureOps.Reduce
import Idealize.ShloMosaic.Lib.Affine
import Idealize.ShloMosaic.Lib.ValueIdx

noncomputable section

namespace Cert.KernelIdeal.TakeInRange

open Cert.KernelIdeal Cert.KernelIdeal.Gen Cert.KernelIdeal.HostStretches
open Idealize.ShloMosaic

theorem ofBool_one {b : Bool} : BitVec.ofBool b = 1#1 ↔ b = true := by cases b <;> decide

/-- The wrapped word of an in-range index is between 0 and 99999. -/
theorem wrapped_range (c : BitVec 32) (h1 : (4294867296#32 : BitVec 32).sle c = true) (h2 : c.slt 100000#32 = true) :
    (0#32 : BitVec 32).sle (if c.slt 0#32 = true then c + 100000#32 else c) = true
      ∧ (if c.slt 0#32 = true then c + 100000#32 else c).sle 99999#32 = true := by
  rw [BitVec.sle_iff_toInt_le] at h1
  rw [BitVec.slt_iff_toInt_lt] at h2
  have k1 : (4294867296#32 : BitVec 32).toInt = -100000 := by decide
  have k2 : (100000#32 : BitVec 32).toInt = 100000 := by decide
  have k0 : (0#32 : BitVec 32).toInt = 0 := by decide
  have k9 : (99999#32 : BitVec 32).toInt = 99999 := by decide
  rw [k1] at h1; rw [k2] at h2
  by_cases hneg : c.slt 0#32 = true
  · rw [if_pos hneg]
    rw [BitVec.slt_iff_toInt_lt, k0] at hneg
    have hs : (c + 100000#32).toInt = c.toInt + 100000 := by
      rw [BitVec.toInt_add, k2]
      apply Int.bmod_eq_of_le <;> omega
    rw [BitVec.sle_iff_toInt_le, BitVec.sle_iff_toInt_le, hs, k0, k9]
    omega
  · rw [if_neg hneg]
    have hge : ¬ c.toInt < 0 := fun h => hneg (by rw [BitVec.slt_iff_toInt_lt, k0]; exact h)
    rw [BitVec.sle_iff_toInt_le, BitVec.sle_iff_toInt_le, k0, k9]
    omega

/-- The range test on the wrapped word of an in-range index holds. -/
theorem scalar_test (c : BitVec 32) (h1 : IntOp.cmpi .sge c 4294867296#32 = 1#1) (h2 : IntOp.cmpi .slt c 100000#32 = 1#1) :
    IntOp.andi (IntOp.cmpi .sge (Scalar.select (IntOp.cmpi .slt c 0#32) (IntOp.addi c 100000#32) c) 0#32)
      (IntOp.cmpi .sle (Scalar.select (IntOp.cmpi .slt c 0#32) (IntOp.addi c 100000#32) c) 99999#32) = 1#1 := by
  have e1 : (4294867296#32 : BitVec 32).sle c = true := ofBool_one.1 h1
  have e2 : c.slt 100000#32 = true := ofBool_one.1 h2
  have hw := wrapped_range c e1 e2
  have hsel : Scalar.select (IntOp.cmpi .slt c 0#32) (IntOp.addi c 100000#32) c
      = (if c.slt 0#32 = true then c + 100000#32 else c) := by
    unfold Scalar.select IntOp.cmpi IntOp.addi
    by_cases h : c.slt 0#32 = true
    · rw [if_pos h]; simp [h]
    · rw [if_neg h]; simp [h]
  rw [hsel, IntOp.andi_eq_one]
  exact ⟨ofBool_one.2 hw.1, ofBool_one.2 hw.2⟩

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    have h11 : IntOp.andi (1#1 : BitVec 1) 1#1 = 1#1 := by decide
    rw [h11]
    exact foldl_andi_one f hf l

/-- The range test holds at every edge. -/
theorem inRange_one (col : IVec S1600000 32)
    (hge : ∀ e : S1600000.Idx, IntOp.cmpi .sge (col e) 4294867296#32 = 1#1)
    (hlt : ∀ e : S1600000.Idx, IntOp.cmpi .slt (col e) 100000#32 = 1#1) (e : S1600000.Idx) :
    inRange (wrapIdx col) e = 1#1 := by
  unfold inRange
  rw [Host.reduce_eq_foldl]
  refine foldl_andi_one _ (fun i => ?_) _
  exact scalar_test _ (hge _) (hlt _)

/-- The gather with a fill is the plain gather. -/
theorem takeRows_eq (col : IVec S1600000 32)
    (hge : ∀ e : S1600000.Idx, IntOp.cmpi .sge (col e) 4294867296#32 = 1#1)
    (hlt : ∀ e : S1600000.Idx, IntOp.cmpi .slt (col e) 100000#32 = 1#1) (x : FVec Ideal S100000x32 .f32) :
    takeRows x col = Host.gather gather_S100000x32_S1600000x1_S1600000x32_1_0_n_n_0_1_132 x (startCol (wrapIdx col)) := by
  funext i
  unfold takeRows
  rw [ValueIdx.select_apply]
  have h1 : broadcastInDim S1600000x32 ![0] bcast_S1600000_S1600000x32_0 (inRange (wrapIdx col)) i = 1#1 :=
    inRange_one col hge hlt _
  rw [h1, ValueIdx.select_one]

end Cert.KernelIdeal.TakeInRange

end
-- ==== Proof.Bridge.lean ====
/-
  The reference's result is the same function of the arguments as the kernel program's.

  Both programs wrap a negative source index once and gather the table's rows at the wrapped index; the kernel program
  then replaces a row whose wrapped index is out of range by a fill value. Where every source index is in range no row is
  replaced, so the two gathered arrays are one. Both programs then form the mean of the incoming messages by the same
  operations (a sum into destination rows, a count of incoming edges, the quotient by the larger of the count and one), so
  equal messages give equal means; and the two stages agree by the regrouping of the first layer's contraction.
-/
import proofs.«425195_j5695126634531_2_alg».proof.Proof.Gen.ReferenceIdeal.Read
import proofs.«425195_j5695126634531_2_alg».proof.Proof.RefEdge
import proofs.«425195_j5695126634531_2_alg».proof.Proof.RefNode
import proofs.«425195_j5695126634531_2_alg».proof.Proof.HostStretches
import proofs.«425195_j5695126634531_2_alg».proof.Proof.TakeInRange

noncomputable section

namespace Cert.Proof.Bridge

open Idealize.ShloMosaic
open Cert.ReferenceIdeal Cert.ReferenceIdeal.Gen Cert.ReferenceIdeal.Read
open Cert.KernelIdeal.HostStretches (rowOf colOf wrapIdx startCol takeRows meanIncoming)

variable (x0 : (⟨S100000x32, .f32⟩ : BufTy).Contents (Elt Ideal)) (x1 : (⟨S2x1600000, .i32⟩ : BufTy).Contents (Elt Ideal))
  (x2 : (⟨S1600000x32, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S96x64, .f32⟩ : BufTy).Contents (Elt Ideal))
  (x10 : (⟨S64, .f32⟩ : BufTy).Contents (Elt Ideal)) (x11 : (⟨S64x32, .f32⟩ : BufTy).Contents (Elt Ideal))
  (x12 : (⟨S32, .f32⟩ : BufTy).Contents (Elt Ideal))

/-- The reference gathers the table's rows at the wrapped source index. -/
theorem ref_gather :
    val_main_v10 (F := Ideal) x0 x1
      = Host.gather Cert.KernelIdeal.gather_S100000x32_S1600000x1_S1600000x32_1_0_n_n_0_1_132 x0 (startCol (wrapIdx (colOf x1))) :=
  rfl

/-- The reference's mean of the incoming messages is the same function of its messages and the destinations. -/
theorem ref_mean :
    val_main_v32 (F := Ideal) x0 x1 x2 x5 x6 x7 x8
      = meanIncoming (val_main_v20 (F := Ideal) x0 x1 x2 x5 x6 x7 x8) (rowOf x1) := by
  unfold val_main_v32 val_main_v23
  generalize val_main_v20 (F := Ideal) x0 x1 x2 x5 x6 x7 x8 = mm
  rfl

/-- Where every source index is in range, the reference's result is the node stage of the node features and the mean of
    the edge stage's messages over the gathered features. -/
theorem ref_result
    (hge : ∀ e : Cert.KernelIdeal.S1600000.Idx, IntOp.cmpi .sge (colOf x1 e) 4294867296#32 = 1#1)
    (hlt : ∀ e : Cert.KernelIdeal.S1600000.Idx, IntOp.cmpi .slt (colOf x1 e) 100000#32 = 1#1) :
    val_main_v42 (F := Ideal) x0 x1 x2 x5 x6 x7 x8 x9 x10 x11 x12
      = Cert.Stages.nodeStage x0
          (meanIncoming (Cert.Stages.edgeStage (takeRows x0 (colOf x1)) x2 x5 x6 x7 x8) (rowOf x1)) x9 x10 x11 x12 := by
  rw [Cert.ReferenceIdeal.NodeValue.node_eq, ref_mean, Cert.ReferenceIdeal.EdgeValue.edge_eq, ref_gather,
    ← Cert.KernelIdeal.TakeInRange.takeRows_eq (colOf x1) hge hlt x0]

end Cert.Proof.Bridge

end
-- ==== Proof.lean ====
/-
  One message-passing layer of a graph network: the kernel program against its reference, over the extended reals.

  Both programs take node features x (100000 × 32), an edge list (2 × 1600000: a row of destinations and a row of sources),
  edge features (1600000 × 32) and the parameters of two two-layer perceptrons. They compute

      messages  m[e]  = max([x[src e], edge_attr[e]] · W1a + b1a, 0) · W1b + b1b
      mean      a[n]  = (Σ over edges e into n of m[e]) / max(number of edges into n, 1)
      result    y[n]  = max([x[n], a[n]] · W2a + b2a, 0) · W2b + b2b .

  The reference joins the two feature rows and contracts with the whole first-layer matrix; the kernel program contracts
  each row with its part of the matrix and adds. Over the extended reals these are one value: a sum over the joined
  coordinates is the sum over the first part plus the sum over the second (Spec). Changes of float format are the identity
  there and a matrix product into a zero accumulator is the exact sum, so each kernel block is the perceptron row by row
  (EdgeBody, NodeBody), each region's array is its stage of what the region finds (EdgeRegion, NodeRegion, StageForms),
  and the reference's stages are the same stages (RefEdge, RefNode).

  The two programs differ in one more place: the kernel program's row gather replaces a row whose source index, wrapped
  once if negative, falls outside 0 … 99999 by a fill value, where the reference's gather reads the nearest row. The
  statement's precondition keeps every source index in −100000 … 99999, the range in which indexing a table of 100000 rows
  is defined; there the test holds at every edge and the two gathers are one (TakeInRange, PreRange, Bridge). The mean of
  the incoming messages is formed by the same operations in both programs and is carried as one function.

  The kernel program's buffers are followed from the launch memory through its host operations and its two regions to the
  result (HostStretches, KernelValue), over the run of the program that names the result's buffer (KernelRun).
-/
import proofs.«425195_j5695126634531_2_alg».proof.Defs
import proofs.«425195_j5695126634531_2_alg».proof.Proof.Gen.Kernel
import proofs.«425195_j5695126634531_2_alg».proof.Proof.Gen.Kernel.Skeleton
import proofs.«425195_j5695126634531_2_alg».proof.Proof.Gen.Kernel.Launch
import proofs.«425195_j5695126634531_2_alg».proof.Proof.Gen.Kernel.Points
import proofs.«425195_j5695126634531_2_alg».proof.Proof.Gen.Kernel.Frame
import proofs.«425195_j5695126634531_2_alg».proof.Proof.Gen.KernelIdeal
import proofs.«425195_j5695126634531_2_alg».proof.Proof.Gen.KernelIdeal.Skeleton
import proofs.«425195_j5695126634531_2_alg».proof.Proof.Gen.KernelIdeal.Launch
import proofs.«425195_j5695126634531_2_alg».proof.Proof.Gen.KernelIdeal.Points
import proofs.«425195_j5695126634531_2_alg».proof.Proof.Gen.KernelIdeal.Frame
import proofs.«425195_j5695126634531_2_alg».proof.Proof.Gen.ReferenceIdeal
import proofs.«425195_j5695126634531_2_alg».proof.Proof.Gen.Pre_finite_inputs
import proofs.«425195_j5695126634531_2_alg».proof.Proof.Gen.ReferenceIdeal.Run
import proofs.«425195_j5695126634531_2_alg».proof.Proof.Gen.ReferenceIdeal.Read
import proofs.«425195_j5695126634531_2_alg».proof.Proof.KernelRun
import proofs.«425195_j5695126634531_2_alg».proof.Proof.KernelValue
import proofs.«425195_j5695126634531_2_alg».proof.Proof.PreRange
import proofs.«425195_j5695126634531_2_alg».proof.Proof.Bridge
import Idealize.ShloMosaic.Adequacy
import Idealize.ShloMosaic.Init

noncomputable section

namespace Cert.Proof

open Idealize.ShloMosaic Idealize.SL.Sem

/-- The word-level kernel program runs to the end without a fault and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, with every source index in range, both programs end with the node stage
    of the node features and the mean of the edge stage's messages: equal results, entry by entry. -/
theorem algebraic : Cert.algebraic_KernelIdeal_ReferenceIdeal := by
  intro m ρ m' ρ' hpre hagree
  refine ⟨fun c => Cert.KernelIdeal.KernelValue.result m c, ?_, ?_⟩
  · exact (θ_run Cert.KernelIdeal.defs _ _).mono
      (fun r h c => ⟨(h c).1.trans (Cert.KernelIdeal.KernelValue.result_eq m ρ c), (h c).2⟩)
      (Cert.KernelIdeal.ValueRun.run_named m ρ)
  · refine (θ_run Cert.ReferenceIdeal.defs _ _).mono (fun r h c => ⟨(h c).1.trans ?_, (h c).2⟩)
      (Cert.ReferenceIdeal.Value.run (F := Ideal) m' ρ')
    obtain ⟨hge, hlt⟩ := Cert.Proof.PreRange.col_range _ _ _ _ _ _ _ _ _ _ _ _ _ (hpre c)
    obtain ⟨e0, e1, e2, e3, e4, e5, e6, e7, e8, e9, e10, e11, e12⟩ := hagree c
    rw [Cert.ReferenceIdeal.Read.val_main_v42_eq, e0, e1, e2, e5, e6, e7, e8, e9, e10, e11, e12]
    exact Cert.Proof.Bridge.ref_result _ _ _ _ _ _ _ _ _ _ _ hge hlt

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
